-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x2048 : Shape := ⟨3, ![256, 64, 2048]⟩
abbrev S256x1024 : Shape := ⟨2, ![256, 1024]⟩
abbrev S2048x1024 : Shape := ⟨2, ![2048, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S256x64x2048 : S_.BroadcastsInDim S256x64x2048 (![] : Fin 0 → Fin S256x64x2048.rank)
  reducesTo_S256x64x2048_S_d0_1_2 : S256x64x2048.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S256x64x2048 .f32) (main_arg1 : FVec F S256x1024 .f32) (main_arg2 : FVec F S2048x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S256x64x2048 .f32 := Host.absf main_arg0
  let main_cst : FVec F S_ .f32 := constant S_ .f32 0x7F800000#32
  let main_v1 : FVec F S256x64x2048 .f32 := broadcastInDim S256x64x2048 ![] bcast_S_S256x64x2048 main_cst
  let main_v2 : IVec S256x64x2048 1 := cmpf .olt main_v0 main_v1
  let main_c : IVec S_ 1 := constantI S_ 1 1#1
  let main_v3 : IVec S_ 1 := (fun x v => Host.reduce IntOp.andi x v reducesTo_S256x64x2048_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S256x64x2048 : Shape := ⟨3, ![256, 64, 2048]⟩
abbrev S256x1024 : Shape := ⟨2, ![256, 1024]⟩
abbrev S2048x1024 : Shape := ⟨2, ![2048, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S1x1024 : Shape := ⟨2, ![1, 1024]⟩
abbrev S256x2048 : Shape := ⟨2, ![256, 2048]⟩
abbrev S256x64 : Shape := ⟨2, ![256, 64]⟩
abbrev S16x64x2048 : Shape := ⟨3, ![16, 64, 2048]⟩
abbrev S16x1024 : Shape := ⟨2, ![16, 1024]⟩
abbrev S16x2048 : Shape := ⟨2, ![16, 2048]⟩
abbrev S16x64 : Shape := ⟨2, ![16, 64]⟩
abbrev S1024x2048 : Shape := ⟨2, ![1024, 2048]⟩
abbrev S16x64x1024 : Shape := ⟨3, ![16, 64, 1024]⟩
abbrev S1x1x1024 : Shape := ⟨3, ![1, 1, 1024]⟩
abbrev S16x1x1024 : Shape := ⟨3, ![16, 1, 1024]⟩
abbrev S16x64x1 : Shape := ⟨3, ![16, 64, 1]⟩
abbrev S1x1x1 : Shape := ⟨3, ![1, 1, 1]⟩
abbrev S16x1 : Shape := ⟨2, ![16, 1]⟩
abbrev S16x1x1 : Shape := ⟨3, ![16, 1, 1]⟩
abbrev S16x16x2048 : Shape := ⟨3, ![16, 16, 2048]⟩
abbrev S16x16x1 : Shape := ⟨3, ![16, 16, 1]⟩
abbrev S256x64x1 : Shape := ⟨3, ![256, 64, 1]⟩

abbrev nBuf : Space → Nat
  | .hbm => 14
  | .vmem => 14
  | .smem => 0
  | _ => 0

abbrev bufTy : (tb : Table) → Fin (tcTables nBuf tb) → BufTy
  | .hbm, ⟨0, _⟩ => ⟨S256x64x2048, .f32⟩
  | .hbm, ⟨1, _⟩ => ⟨S256x1024, .f32⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S2048x1024, .bf16⟩
  | .hbm, ⟨9, _⟩ => ⟨S1024x1024, .bf16⟩
  | .hbm, ⟨10, _⟩ => ⟨S1x1024, .f32⟩
  | .hbm, ⟨11, _⟩ => ⟨S256x2048, .f32⟩
  | .hbm, ⟨12, _⟩ => ⟨S256x64, .f32⟩
  | .hbm, ⟨13, _⟩ => ⟨S256x64x1, .f32⟩
  | .local _ .vmem, ⟨0, _⟩ => ⟨S16x64x2048, .f32⟩
  | .local _ .vmem, ⟨1, _⟩ => ⟨S16x64x2048, .f32⟩
  | .local _ .vmem, ⟨2, _⟩ => ⟨S16x1024, .f32⟩
  | .local _ .vmem, ⟨3, _⟩ => ⟨S16x1024, .f32⟩
  | .local _ .vmem, ⟨4, _⟩ => ⟨S2048x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1x1024, .f32⟩
  | .local _ .vmem, ⟨9, _⟩ => ⟨S1, .f32⟩
  | .local _ .vmem, ⟨10, _⟩ => ⟨S16x2048, .f32⟩
  | .local _ .vmem, ⟨11, _⟩ => ⟨S16x2048, .f32⟩
  | .local _ .vmem, ⟨12, _⟩ => ⟨S16x64, .f32⟩
  | .local _ .vmem, ⟨13, _⟩ => ⟨S16x64, .f32⟩
  | _, _ => ⟨S256x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  transposes_S1024x1_S1x1024_1_0 : S1024x1.Transposes [1, 0] S1x1024
  inb_S16x64x2048_S16x64x2048_0_0_0 : ∀ a, (![0, 0, 0] : Fin 3 → Nat) a + S16x64x2048.size a ≤ S16x64x2048.size a
  h_S16x64x2048 : 0 < S16x64x2048.numel
  shapeCasts_S16x64x2048_S1024x2048 : S16x64x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x1024_S16x64x1024 : S1024x1024.ShapeCasts S16x64x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S16x64x1024 : S1x1x1024.Broadcasts S16x64x1024
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024_S1x1024 : S1024.ShapeCasts S1x1024
  broadcasts_S1x1024_S16x1024 : S1x1024.Broadcasts S16x1024
  shapeCasts_S16x1024_S16x1x1024 : S16x1024.ShapeCasts S16x1x1024
  broadcasts_S16x1x1024_S16x64x1024 : S16x1x1024.Broadcasts S16x64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  reduces_S16x64x1024_S16x64 : S16x64x1024.Reduces [2] S16x64
  shapeCasts_S16x64_S16x64x1 : S16x64.ShapeCasts S16x64x1
  inb_S1_S1_0 : ∀ a, (![0] : Fin 1 → Nat) a + S1.size a ≤ S1.size a
  h_S1 : 0 < S1.numel
  shapeCasts_S1_S1x1x1 : S1.ShapeCasts S1x1x1
  broadcasts_S1x1x1_S16x64x1 : S1x1x1.Broadcasts S16x64x1
  reduces_S16x64x1_S16x1 : S16x64x1.Reduces [1] S16x1
  shapeCasts_S16x1_S16x1x1 : S16x1.ShapeCasts S16x1x1
  broadcasts_S16x1x1_S16x64x1 : S16x1x1.Broadcasts S16x64x1
  shapeCasts_S16x64x1_S16x64 : S16x64x1.ShapeCasts S16x64
  inb_S16x64_S16x64_0_0 : ∀ a, (![0, 0] : Fin 2 → Nat) a + S16x64.size a ≤ S16x64.size a
  h_S16x64 : 0 < S16x64.numel
  inb_S16x64x2048_S16x16x2048_0_0_0 : ∀ a, (![0, 0, 0] : Fin 3 → Nat) a + S16x16x2048.size a ≤ S16x64x2048.size a
  h_S16x16x2048 : 0 < S16x16x2048.numel
  slices_S16x64x1_o0_0_0_S16x16x1 : S16x64x1.Slices ![0, 0, 0] S16x16x1
  broadcasts_S16x16x1_S16x16x2048 : S16x16x1.Broadcasts S16x16x2048
  reduces_S16x16x2048_S16x2048 : S16x16x2048.Reduces [1] S16x2048
  inb_S16x64x2048_S16x16x2048_0_16_0 : ∀ a, (![0, 16, 0] : Fin 3 → Nat) a + S16x16x2048.size a ≤ S16x64x2048.size a
  slices_S16x64x1_o0_16_0_S16x16x1 : S16x64x1.Slices ![0, 16, 0] S16x16x1
  inb_S16x64x2048_S16x16x2048_0_32_0 : ∀ a, (![0, 32, 0] : Fin 3 → Nat) a + S16x16x2048.size a ≤ S16x64x2048.size a
  slices_S16x64x1_o0_32_0_S16x16x1 : S16x64x1.Slices ![0, 32, 0] S16x16x1
  inb_S16x64x2048_S16x16x2048_0_48_0 : ∀ a, (![0, 48, 0] : Fin 3 → Nat) a + S16x16x2048.size a ≤ S16x64x2048.size a
  slices_S16x64x1_o0_48_0_S16x16x1 : S16x64x1.Slices ![0, 48, 0] S16x16x1
  inb_S16x2048_S16x2048_0_0 : ∀ a, (![0, 0] : Fin 2 → Nat) a + S16x2048.size a ≤ S16x2048.size a
  h_S16x2048 : 0 < S16x2048.numel
  bcast_S256x64_S256x64x1_0_1 : S256x64.BroadcastsInDim S256x64x1 (![0, 1] : Fin 2 → Fin S256x64x1.rank)
  dot_S1024x2048_S2048x1024_S1024x1024_1_0_0_1_n_n_wf : DotDims.WF S1024x2048 S2048x1024 S1024x1024 [1] [0] [0] [1] [] []
  dot_S16x1024_S1024x1024_S16x1024_1_0_0_1_n_n_wf : DotDims.WF S16x1024 S1024x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x2048.size a ≤ S256x64x2048.size a
  hwx0_0 : ∀ i : grid0.Coords, EltTy.bits .f32 = 32 ∨ (Rect.block (s := S256x64x2048) S16x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S256x1024.size a
  hwx0_1 : ∀ i : grid0.Coords, EltTy.bits .f32 = 32 ∨ (Rect.block (s := S256x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x2048.size a ≤ S256x2048.size a
  hwx0_8 : ∀ i : grid0.Coords, EltTy.bits .f32 = 32 ∨ (Rect.block (s := S256x2048) S16x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x64.size a ≤ S256x64.size a
  hwx0_9 : ∀ i : grid0.Coords, EltTy.bits .f32 = 32 ∨ (Rect.block (s := S256x64) S16x64.size (cc0_transform_9 i) (hinb0_9 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf

abbrev win0_0 : Pipeline.Window sig grid0 :=
  Pipeline.Window.ofSpec (Memref.whole main_arg0) S16x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S16x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S16x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x64x2048 : Shape := ⟨3, ![256, 64, 2048]⟩
abbrev S256x1024 : Shape := ⟨2, ![256, 1024]⟩
abbrev S2048x1024 : Shape := ⟨2, ![2048, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S256x64x1024 : Shape := ⟨3, ![256, 64, 1024]⟩
abbrev S1x1x1024 : Shape := ⟨3, ![1, 1, 1024]⟩
abbrev S1x1024 : Shape := ⟨2, ![1, 1024]⟩
abbrev S256x1x1024 : Shape := ⟨3, ![256, 1, 1024]⟩
abbrev S256x64x1 : Shape := ⟨3, ![256, 64, 1]⟩
abbrev S1x1x1 : Shape := ⟨3, ![1, 1, 1]⟩
abbrev S_ : Shape := ⟨0, ![]⟩
abbrev S256x1 : Shape := ⟨2, ![256, 1]⟩
abbrev S256x1x1 : Shape := ⟨3, ![256, 1, 1]⟩
abbrev S256x2048 : Shape := ⟨2, ![256, 2048]⟩

abbrev nBuf : Space → Nat
  | .hbm => 42
  | .vmem => 0
  | .smem => 0
  | _ => 0

abbrev bufTy : (tb : Table) → Fin (tcTables nBuf tb) → BufTy
  | .hbm, ⟨0, _⟩ => ⟨S256x64x2048, .f32⟩
  | .hbm, ⟨1, _⟩ => ⟨S256x1024, .f32⟩
  | .hbm, ⟨2, _⟩ => ⟨S2048x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S256x64x1024, .f32⟩
  | .hbm, ⟨9, _⟩ => ⟨S1x1x1024, .f32⟩
  | .hbm, ⟨10, _⟩ => ⟨S256x64x1024, .f32⟩
  | .hbm, ⟨11, _⟩ => ⟨S256x64x1024, .f32⟩
  | .hbm, ⟨12, _⟩ => ⟨S256x1024, .f32⟩
  | .hbm, ⟨13, _⟩ => ⟨S1x1024, .f32⟩
  | .hbm, ⟨14, _⟩ => ⟨S256x1024, .f32⟩
  | .hbm, ⟨15, _⟩ => ⟨S256x1024, .f32⟩
  | .hbm, ⟨16, _⟩ => ⟨S256x1x1024, .f32⟩
  | .hbm, ⟨17, _⟩ => ⟨S256x64x1024, .f32⟩
  | .hbm, ⟨18, _⟩ => ⟨S256x64x1024, .f32⟩
  | .hbm, ⟨19, _⟩ => ⟨S256x64x1024, .f32⟩
  | .hbm, ⟨20, _⟩ => ⟨S256x64x1, .f32⟩
  | .hbm, ⟨21, _⟩ => ⟨S1x1x1, .f32⟩
  | .hbm, ⟨22, _⟩ => ⟨S256x64x1, .f32⟩
  | .hbm, ⟨23, _⟩ => ⟨S256x64x1, .f32⟩
  | .hbm, ⟨24, _⟩ => ⟨S_, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1x1, .f32⟩
  | .hbm, ⟨30, _⟩ => ⟨S256x64x1, .f32⟩
  | .hbm, ⟨31, _⟩ => ⟨S256x64x1, .f32⟩
  | .hbm, ⟨32, _⟩ => ⟨S256x64x1, .f32⟩
  | .hbm, ⟨33, _⟩ => ⟨S_, .f32⟩
  | .hbm, ⟨34, _⟩ => ⟨S256x1, .f32⟩
  | .hbm, ⟨35, _⟩ => ⟨S256x1x1, .f32⟩
  | .hbm, ⟨36, _⟩ => ⟨S256x64x1, .f32⟩
  | .hbm, ⟨37, _⟩ => ⟨S256x64x1, .f32⟩
  | .hbm, ⟨38, _⟩ => ⟨S256x64x2048, .f32⟩
  | .hbm, ⟨39, _⟩ => ⟨S256x64x2048, .f32⟩
  | .hbm, ⟨40, _⟩ => ⟨S_, .f32⟩
  | .hbm, ⟨41, _⟩ => ⟨S256x2048, .f32⟩
  | _, _ => ⟨S256x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S256x64x1024_0_1_2 : S1x1x1024.BroadcastsInDim S256x64x1024 (![0, 1, 2] : Fin 3 → Fin S256x64x1024.rank)
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S256x1024_S256x1x1024_0_2 : S256x1024.BroadcastsInDim S256x1x1024 (![0, 2] : Fin 2 → Fin S256x1x1024.rank)
  bcast_S256x1x1024_S256x64x1024_0_1_2 : S256x1x1024.BroadcastsInDim S256x64x1024 (![0, 1, 2] : Fin 3 → Fin S256x64x1024.rank)
  bcast_S1_S1x1x1_2 : S1.BroadcastsInDim S1x1x1 (![2] : Fin 1 → Fin S1x1x1.rank)
  bcast_S1x1x1_S256x64x1_0_1_2 : S1x1x1.BroadcastsInDim S256x64x1 (![0, 1, 2] : Fin 3 → Fin S256x64x1.rank)
  reducesTo_S256x64x1_S256x1_d1 : S256x64x1.ReducesTo [1] S256x1
  h_S_ : 0 < S_.numel
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x64x1_0_1_2 : S256x1x1.BroadcastsInDim S256x64x1 (![0, 1, 2] : Fin 3 → Fin S256x64x1.rank)
  bcast_S256x64x1_S256x64x2048_0_1_2 : S256x64x1.BroadcastsInDim S256x64x2048 (![0, 1, 2] : Fin 3 → Fin S256x64x2048.rank)
  reducesTo_S256x64x2048_S256x2048_d1 : S256x64x2048.ReducesTo [1] S256x2048
  dot_S256x64x2048_S2048x1024_S256x64x1024_2_0_01_1_n_n_wf : DotDims.WF S256x64x2048 S2048x1024 S256x64x1024 [2] [0] [0, 1] [1] [] []
  dot_S256x1024_S1024x1024_S256x1024_1_0_0_1_n_n_wf : DotDims.WF S256x1024 S1024x1024 S256x1024 [1] [0] [0] [1] [] []
  dot_S256x64x1024_S1024x1_S256x64x1_2_0_01_1_n_n_wf : DotDims.WF S256x64x1024 S1024x1 S256x64x1 [2] [0] [0, 1] [1] [] []

variable [Facts₀]

def dot_S256x64x2048_S2048x1024_S256x64x1024_2_0_01_1_n_n : DotDims S256x64x2048 S2048x1024 S256x64x1024 where
  lhsContracting := [2]
  rhsContracting := [0]
  lhsNonContracting := [0, 1]
  rhsNonContracting := [1]
  lhsBatch := []
  rhsBatch := []
  wf := dot_S256x64x2048_S2048x1024_S256x64x1024_2_0_01_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x64x1024_S1024x1_S256x64x1_2_0_01_1_n_n : DotDims S256x64x1024 S1024x1 S256x64x1 where
  lhsContracting := [2]
  rhsContracting := [0]
  lhsNonContracting := [0, 1]
  rhsNonContracting := [1]
  lhsBatch := []
  rhsBatch := []
  wf := dot_S256x64x1024_S1024x1_S256x64x1_2_0_01_1_n_n_wf

class Facts : Prop extends Facts₀ where

variable [Facts]
-- ==== Proof.Spec.lean ====
/-
  Additive attention over one batch row, as a function on the extended reals.

  A row has 64 positions with 2048 features each (`xr`) and a hidden state of 1024 entries (`hr`).
  Both are projected to 1024 units (`W1`, `b1` for the features; `W2`, `b2` for the hidden state), the two
  projections are added and passed through tanh, and a position's logit is the inner product of its
  1024 activations with the vector `v`, plus `vb`. The weights are the softmax of the 64 logits taken in the
  stable form (the largest logit subtracted before the exponential), and the context is the weighted sum
  of the row's feature vectors. Everything is row-local: nothing here depends on another batch row,
  which is what lets a block of rows be computed on its own.

  Also here: a sum over the 64 positions cut into four runs of 16 consecutive positions, the form in which the
  weighted sum is accumulated piece by piece.
-/
import Idealize.ShloMosaic.PureOps.Ideal
import Idealize.ShloMosaic.Lib.ValueIdx
import Mathlib.Algebra.BigOperators.Fin

noncomputable section

namespace Cert.AdditiveAttention

open Idealize.ShloMosaic Idealize.ShloMosaic.ValueIdx

variable (xr : Fin 64 → Fin 2048 → EReal) (hr : Fin 1024 → EReal)
  (W1 : Fin 2048 → Fin 1024 → EReal) (b1 : Fin 1024 → EReal)
  (W2 : Fin 1024 → Fin 1024 → EReal) (b2 : Fin 1024 → EReal)
  (v : Fin 1024 → EReal) (vb : EReal)

/-- The features' projection at position `p`, unit `u`: Σ_f x[p,f]·W1[f,u] + b1[u]. -/
def featProj (p : Fin 64) (u : Fin 1024) : EReal := (∑ f : Fin 2048, xr p f * W1 f u) + b1 u

/-- The hidden state's projection at unit `u`: Σ_k h[k]·W2[k,u] + b2[u]. -/
def hidProj (u : Fin 1024) : EReal := (∑ k : Fin 1024, hr k * W2 k u) + b2 u

/-- The activation: tanh of the two projections' sum. -/
def act (p : Fin 64) (u : Fin 1024) : EReal := Ideal.tanh (featProj xr W1 b1 p u + hidProj hr W2 b2 u)

/-- Position `p`'s logit: Σ_u act[p,u]·v[u] + vb. -/
def logit (p : Fin 64) : EReal := (∑ u : Fin 1024, act xr hr W1 b1 W2 b2 p u * v u) + vb

/-- The largest of the 64 logits (the fold of `max` from −∞). -/
def logitMax : EReal := (Finset.univ : Finset (Fin 64)).fold max ⊥ (logit xr hr W1 b1 W2 b2 v vb)

/-- exp (logit − largest logit). -/
def expo (p : Fin 64) : EReal := Ideal.exp (logit xr hr W1 b1 W2 b2 v vb p - logitMax xr hr W1 b1 W2 b2 v vb)

/-- The attention weight of position `p`: its exponential over the sum of the 64. -/
def weight (p : Fin 64) : EReal := Ideal.div (expo xr hr W1 b1 W2 b2 v vb p) (∑ q : Fin 64, expo xr hr W1 b1 W2 b2 v vb q)

/-- The context vector at feature `f`: Σ_p weight[p]·x[p,f]. -/
def context (f : Fin 2048) : EReal := ∑ p : Fin 64, weight xr hr W1 b1 W2 b2 v vb p * xr p f

/-- Position `16·c + q` of the 64, for a run `c` of the four and a place `q` inside it. -/
def pos (c : Fin 4) (q : Fin 16) : Fin 64 := ⟨16 * c.val + q.val, by have := c.isLt; have := q.isLt; omega⟩

/-- A sum over the 64 positions is the sum of its four runs of 16, added up from zero in order. -/
theorem sum_runs {M : Type*} [AddCommMonoid M] (g : Fin 64 → M) :
    ∑ p : Fin 64, g p
      = (((0 + ∑ q : Fin 16, g (pos 0 q)) + ∑ q : Fin 16, g (pos 1 q)) + ∑ q : Fin 16, g (pos 2 q)) + ∑ q : Fin 16, g (pos 3 q) := by
  have e : ∑ p : Fin 64, g p = ∑ p : Fin (16 + (16 + (16 + 16))), g ⟨p.val, p.isLt⟩ := rfl
  rw [e, Fin.sum_univ_add, Fin.sum_univ_add, Fin.sum_univ_add, zero_add, ← add_assoc, ← add_assoc]
  rfl

/-! ## The two results over the whole batch

The arguments are the eight arrays: features [256, 64, 2048], hidden states [256, 1024], the two weight matrices
[2048, 1024] and [1024, 1024] with their bias vectors [1024], the scoring vector as a column [1024, 1] and its bias [1].
Batch row `b` of the results is the row function above at row `b` of the features and of the hidden states. -/

section Whole
variable (X0 : (⟨3, ![256, 64, 2048]⟩ : Shape).Idx → EReal) (X1 : (⟨2, ![256, 1024]⟩ : Shape).Idx → EReal)
  (X2 : (⟨2, ![2048, 1024]⟩ : Shape).Idx → EReal) (X3 : (⟨1, ![1024]⟩ : Shape).Idx → EReal)
  (X4 : (⟨2, ![1024, 1024]⟩ : Shape).Idx → EReal) (X5 : (⟨1, ![1024]⟩ : Shape).Idx → EReal)
  (X6 : (⟨2, ![1024, 1]⟩ : Shape).Idx → EReal) (X7 : (⟨1, ![1]⟩ : Shape).Idx → EReal)

/-- The attention weights [256, 64, 1]. -/
def weightsOf : (⟨3, ![256, 64, 1]⟩ : Shape).Idx → EReal := fun i =>
  weight (fun p f => X0 (ix3 (i 0) p f)) (fun k => X1 (ix2 (i 0) k)) (fun f u => X2 (ix2 f u)) (fun u => X3 (ix1 u))
    (fun k u => X4 (ix2 k u)) (fun u => X5 (ix1 u)) (fun u => X6 (ix2 u 0)) (X7 (ix1 0)) (i 1)

/-- The context vectors [256, 2048]. -/
def contextOf : (⟨2, ![256, 2048]⟩ : Shape).Idx → EReal := fun i =>
  context (fun p f => X0 (ix3 (i 0) p f)) (fun k => X1 (ix2 (i 0) k)) (fun f u => X2 (ix2 f u)) (fun u => X3 (ix1 u))
    (fun k u => X4 (ix2 k u)) (fun u => X5 (ix1 u)) (fun u => X6 (ix2 u 0)) (X7 (ix1 0)) (i 1)

theorem weightsOf_ix (b : Fin 256) (p : Fin 64) (z : Fin 1) :
    weightsOf X0 X1 X2 X3 X4 X5 X6 X7 (ix3 b p z)
      = weight (fun p f => X0 (ix3 b p f)) (fun k => X1 (ix2 b k)) (fun f u => X2 (ix2 f u)) (fun u => X3 (ix1 u))
          (fun k u => X4 (ix2 k u)) (fun u => X5 (ix1 u)) (fun u => X6 (ix2 u 0)) (X7 (ix1 0)) p := rfl

theorem contextOf_ix (b : Fin 256) (f : Fin 2048) :
    contextOf X0 X1 X2 X3 X4 X5 X6 X7 (ix2 b f)
      = context (fun p f => X0 (ix3 b p f)) (fun k => X1 (ix2 b k)) (fun f u => X2 (ix2 f u)) (fun u => X3 (ix1 u))
          (fun k u => X4 (ix2 k u)) (fun u => X5 (ix1 u)) (fun u => X6 (ix2 u 0)) (X7 (ix1 0)) f := rfl
end Whole

end Cert.AdditiveAttention

end
-- ==== Proof.KernelLogits.lean ====
/-
  The first half of the kernel body at one element, on the extended reals: for a block of 16 batch rows, the exponential
  of each position's logit less the row's largest logit.
-/
import proofs.«139555_j33243046871455_2_alg».proof.Proof.Gen.KernelIdeal.Skeleton
import proofs.«139555_j33243046871455_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Attn

open Cert.KernelIdeal Cert.KernelIdeal.Gen Cert.AdditiveAttention
open Idealize.ShloMosaic Idealize.ShloMosaic.ValueIdx

namespace Logits

/-! ## The two matrix products read at an element -/

theorem lhs_D1_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem lhs_D1_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem rhs_D1_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem rhs_D1_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- Row `m`, column `u` of the first product: the sum over the 2048 features. -/
theorem matmul1_apply (a : FVec Ideal S1024x2048 .bf16) (b : FVec Ideal S2048x1024 .bf16) (m : Fin 1024) (u : Fin 1024) :
    matmul dot_S1024x2048_S2048x1024_S1024x1024_1_0_0_1_n_n none a b (constant S1024x1024 .f32 0x00000000#32) (ix2 m u)
      = ∑ f : Fin 2048, a (ix2 m f) * b (ix2 f u) := by
  refine (Ideal.matmul_constant_zero_apply dot_S1024x2048_S2048x1024_S1024x1024_1_0_0_1_n_n none a b (ix2 m u)).trans ?_
  rw [← Equiv.sum_comp (ValueIdx.contrEquiv1 dot_S1024x2048_S2048x1024_S1024x1024_1_0_0_1_n_n 2048 rfl rfl).symm]
  refine Finset.sum_congr rfl fun k _ => ?_
  have hk := ValueIdx.contrEquiv1_symm_val dot_S1024x2048_S2048x1024_S1024x1024_1_0_0_1_n_n 2048 rfl rfl k
  have el : dot_S1024x2048_S2048x1024_S1024x1024_1_0_0_1_n_n.lhsIdx (ix2 m u) ((ValueIdx.contrEquiv1 dot_S1024x2048_S2048x1024_S1024x1024_1_0_0_1_n_n 2048 rfl rfl).symm k) = ix2 m k := funext fun a => Fin.ext (by
    match a with
    | ⟨0, _⟩ => exact lhs_D1_0 _ _
    | ⟨1, _⟩ => exact (lhs_D1_1 _ _).trans hk)
  have er : dot_S1024x2048_S2048x1024_S1024x1024_1_0_0_1_n_n.rhsIdx (ix2 m u) ((ValueIdx.contrEquiv1 dot_S1024x2048_S2048x1024_S1024x1024_1_0_0_1_n_n 2048 rfl rfl).symm k) = ix2 k u := funext fun a => Fin.ext (by
    match a with
    | ⟨0, _⟩ => exact (rhs_D1_0 _ _).trans hk
    | ⟨1, _⟩ => exact rhs_D1_1 _ _)
  rw [el, er]

theorem lhs_D2_0 (i : S16x1024.Idx) (q : dot_S16x1024_S1024x1024_S16x1024_1_0_0_1_n_n.contr.Idx) :
    (dot_S16x1024_S1024x1024_S16x1024_1_0_0_1_n_n.lhsIdx i q 0).val = (i 0).val := by
  unfold DotDims.lhsIdx
  rw [dif_neg (show ¬(0 : Fin S16x1024.rank) ∈ dot_S16x1024_S1024x1024_S16x1024_1_0_0_1_n_n.lhsBatch by decide), dif_pos (show (0 : Fin S16x1024.rank) ∈ dot_S16x1024_S1024x1024_S16x1024_1_0_0_1_n_n.lhsNonContracting by decide)]
  rfl
theorem lhs_D2_1 (i : S16x1024.Idx) (q : dot_S16x1024_S1024x1024_S16x1024_1_0_0_1_n_n.contr.Idx) :
    (dot_S16x1024_S1024x1024_S16x1024_1_0_0_1_n_n.lhsIdx i q 1).val = (q ⟨0, by decide⟩).val :=
  dot_S16x1024_S1024x1024_S16x1024_1_0_0_1_n_n.lhsIdx_val_of_single rfl i q
theorem rhs_D2_0 (i : S16x1024.Idx) (q : dot_S16x1024_S1024x1024_S16x1024_1_0_0_1_n_n.contr.Idx) :
    (dot_S16x1024_S1024x1024_S16x1024_1_0_0_1_n_n.rhsIdx i q 0).val = (q ⟨0, by decide⟩).val :=
  dot_S16x1024_S1024x1024_S16x1024_1_0_0_1_n_n.rhsIdx_val_of_single rfl i q
theorem rhs_D2_1 (i : S16x1024.Idx) (q : dot_S16x1024_S1024x1024_S16x1024_1_0_0_1_n_n.contr.Idx) :
    (dot_S16x1024_S1024x1024_S16x1024_1_0_0_1_n_n.rhsIdx i q 1).val = (i 1).val := by
  unfold DotDims.rhsIdx
  rw [dif_neg (show ¬(1 : Fin S1024x1024.rank) ∈ dot_S16x1024_S1024x1024_S16x1024_1_0_0_1_n_n.rhsBatch by decide), dif_pos (show (1 : Fin S1024x1024.rank) ∈ dot_S16x1024_S1024x1024_S16x1024_1_0_0_1_n_n.rhsNonContracting by decide)]
  rfl

/-- Row `r`, column `u` of the second product: the sum over the 1024 hidden entries. -/
theorem matmul2_apply (a : FVec Ideal S16x1024 .bf16) (b : FVec Ideal S1024x1024 .bf16) (r : Fin 16) (u : Fin 1024) :
    matmul dot_S16x1024_S1024x1024_S16x1024_1_0_0_1_n_n none a b (constant S16x1024 .f32 0x00000000#32) (ix2 r u)
      = ∑ k : Fin 1024, a (ix2 r k) * b (ix2 k u) := by
  refine (Ideal.matmul_constant_zero_apply dot_S16x1024_S1024x1024_S16x1024_1_0_0_1_n_n none a b (ix2 r u)).trans ?_
  rw [← Equiv.sum_comp (ValueIdx.contrEquiv1 dot_S16x1024_S1024x1024_S16x1024_1_0_0_1_n_n 1024 rfl rfl).symm]
  refine Finset.sum_congr rfl fun k _ => ?_
  have hk := ValueIdx.contrEquiv1_symm_val dot_S16x1024_S1024x1024_S16x1024_1_0_0_1_n_n 1024 rfl rfl k
  have el : dot_S16x1024_S1024x1024_S16x1024_1_0_0_1_n_n.lhsIdx (ix2 r u) ((ValueIdx.contrEquiv1 dot_S16x1024_S1024x1024_S16x1024_1_0_0_1_n_n 1024 rfl rfl).symm k) = ix2 r k := funext fun a => Fin.ext (by
    match a with
    | ⟨0, _⟩ => exact lhs_D2_0 _ _
    | ⟨1, _⟩ => exact (lhs_D2_1 _ _).trans hk)
  have er : dot_S16x1024_S1024x1024_S16x1024_1_0_0_1_n_n.rhsIdx (ix2 r u) ((ValueIdx.contrEquiv1 dot_S16x1024_S1024x1024_S16x1024_1_0_0_1_n_n 1024 rfl rfl).symm k) = ix2 k u := funext fun a => Fin.ext (by
    match a with
    | ⟨0, _⟩ => exact (rhs_D2_0 _ _).trans hk
    | ⟨1, _⟩ => exact rhs_D2_1 _ _)
  rw [el, er]

/-! ## The layout operations read at an element -/

/-- Row `64·r + p` of the 1024 rows a block of 16 × 64 positions flattens to. -/
def flat (r : Fin 16) (p : Fin 64) : Fin 1024 := ⟨64 * r.val + p.val, by have := r.isLt; have := p.isLt; omega⟩

/-- The block's positions flattened to 1024 rows: row `64·r + p` is position `(r, p)`. -/
theorem cast_flat_apply {α : Type} (x : S16x64x2048.Idx → α) (h : S16x64x2048.ShapeCasts S1024x2048)
    (r : Fin 16) (p : Fin 64) (f : Fin 2048) :
    shapeCast S1024x2048 x h (ix2 (flat r p) f) = x (ix3 r p f) := by
  refine shapeCast_apply x h (ix2 (flat r p) f) (ix3 r p f) ?_
  rw [Shape.rowMajor_val_three, Shape.rowMajor_val_two]
  show (r.val * 64 + p.val) * 2048 + f.val = (64 * r.val + p.val) * 2048 + f.val
  omega

/-- The 1024 rows cut back into 16 × 64 positions. -/
theorem cast_unflat_apply {α : Type} (y : S1024x1024.Idx → α) (h : S1024x1024.ShapeCasts S16x64x1024)
    (r : Fin 16) (p : Fin 64) (u : Fin 1024) :
    shapeCast S16x64x1024 y h (ix3 r p u) = y (ix2 (flat r p) u) := by
  refine shapeCast_apply y h (ix3 r p u) (ix2 (flat r p) u) ?_
  rw [Shape.rowMajor_val_three, Shape.rowMajor_val_two]
  show (64 * r.val + p.val) * 1024 + u.val = (r.val * 64 + p.val) * 1024 + u.val
  omega

/-- A bias vector over the 1024 units, as a [1,1,1024] row broadcast over the block's positions. -/
theorem bias3_apply {α : Type} (b : S1024.Idx → α) (h1 : S1024.ShapeCasts S1x1x1024) (h2 : S1x1x1024.Broadcasts S16x64x1024)
    (r : Fin 16) (p : Fin 64) (u : Fin 1024) :
    broadcastTo S16x64x1024 (shapeCast S1x1x1024 b h1) h2 (ix3 r p u) = b (ix1 u) := by
  refine (broadcastTo_apply (shapeCast S1x1x1024 b h1) h2 (ix3 r p u) (ix3 0 0 u) (fun a => match a with
    | ⟨0, _⟩ => by show 0 = if (1 : Nat) = 1 then 0 else r.val; rw [if_pos rfl]
    | ⟨1, _⟩ => by show 0 = if (1 : Nat) = 1 then 0 else p.val; rw [if_pos rfl]
    | ⟨2, _⟩ => by show u.val = if (1024 : Nat) = 1 then 0 else u.val; rw [if_neg (by decide)])).trans ?_
  refine shapeCast_apply b h1 (ix3 0 0 u) (ix1 u) ?_
  rw [Shape.rowMajor_val_three, Shape.rowMajor_val_one]
  show u.val = (0 * 1 + 0) * 1024 + u.val
  omega

/-- A bias vector over the 1024 units, as a [1,1024] row broadcast over the 16 rows. -/
theorem bias2_apply {α : Type} (b : S1024.Idx → α) (h1 : S1024.ShapeCasts S1x1024) (h2 : S1x1024.Broadcasts S16x1024)
    (r : Fin 16) (u : Fin 1024) :
    broadcastTo S16x1024 (shapeCast S1x1024 b h1) h2 (ix2 r u) = b (ix1 u) := by
  refine (broadcastTo_apply (shapeCast S1x1024 b h1) h2 (ix2 r u) (ix2 0 u) (fun a => match a with
    | ⟨0, _⟩ => by show 0 = if (1 : Nat) = 1 then 0 else r.val; rw [if_pos rfl]
    | ⟨1, _⟩ => by show u.val = if (1024 : Nat) = 1 then 0 else u.val; rw [if_neg (by decide)])).trans ?_
  refine shapeCast_apply b h1 (ix2 0 u) (ix1 u) ?_
  rw [Shape.rowMajor_val_two, Shape.rowMajor_val_one]
  show u.val = 0 * 1024 + u.val
  omega

/-- A [16,1024] array, one row per batch row, broadcast over the 64 positions. -/
theorem rows_bcast_apply {α : Type} (y : S16x1024.Idx → α) (h1 : S16x1024.ShapeCasts S16x1x1024) (h2 : S16x1x1024.Broadcasts S16x64x1024)
    (r : Fin 16) (p : Fin 64) (u : Fin 1024) :
    broadcastTo S16x64x1024 (shapeCast S16x1x1024 y h1) h2 (ix3 r p u) = y (ix2 r u) := by
  refine (broadcastTo_apply (shapeCast S16x1x1024 y h1) h2 (ix3 r p u) (ix3 r 0 u) (fun a => match a with
    | ⟨0, _⟩ => by show r.val = if (16 : Nat) = 1 then 0 else r.val; rw [if_neg (by decide)]
    | ⟨1, _⟩ => by show 0 = if (1 : Nat) = 1 then 0 else p.val; rw [if_pos rfl]
    | ⟨2, _⟩ => by show u.val = if (1024 : Nat) = 1 then 0 else u.val; rw [if_neg (by decide)])).trans ?_
  refine shapeCast_apply y h1 (ix3 r 0 u) (ix2 r u) ?_
  rw [Shape.rowMajor_val_three, Shape.rowMajor_val_two]
  show r.val * 1024 + u.val = (r.val * 1 + 0) * 1024 + u.val
  omega

/-- The scoring row [1,1024] broadcast over the block's positions. -/
theorem score_bcast_apply {α : Type} (v : S1x1024.Idx → α) (h0 : S1x1024.ShapeCasts S1x1024) (h1 : S1x1024.ShapeCasts S1x1x1024)
    (h2 : S1x1x1024.Broadcasts S16x64x1024) (r : Fin 16) (p : Fin 64) (u : Fin 1024) :
    broadcastTo S16x64x1024 (shapeCast S1x1x1024 (shapeCast S1x1024 v h0) h1) h2 (ix3 r p u) = v (ix2 0 u) := by
  rw [shapeCast_self]
  refine (broadcastTo_apply (shapeCast S1x1x1024 v h1) h2 (ix3 r p u) (ix3 0 0 u) (fun a => match a with
    | ⟨0, _⟩ => by show 0 = if (1 : Nat) = 1 then 0 else r.val; rw [if_pos rfl]
    | ⟨1, _⟩ => by show 0 = if (1 : Nat) = 1 then 0 else p.val; rw [if_pos rfl]
    | ⟨2, _⟩ => by show u.val = if (1024 : Nat) = 1 then 0 else u.val; rw [if_neg (by decide)])).trans ?_
  refine shapeCast_apply v h1 (ix3 0 0 u) (ix2 0 u) ?_
  rw [Shape.rowMajor_val_three, Shape.rowMajor_val_two]
  show 0 * 1024 + u.val = (0 * 1 + 0) * 1024 + u.val
  omega

/-- The scoring bias [1] broadcast over the block's positions. -/
theorem vb_bcast_apply {α : Type} (b : S1.Idx → α) (h1 : S1.ShapeCasts S1x1x1) (h2 : S1x1x1.Broadcasts S16x64x1)
    (r : Fin 16) (p : Fin 64) :
    broadcastTo S16x64x1 (shapeCast S1x1x1 b h1) h2 (ix3 r p 0) = b (ix1 0) := by
  refine (broadcastTo_apply (shapeCast S1x1x1 b h1) h2 (ix3 r p 0) (ix3 0 0 0) (fun a => match a with
    | ⟨0, _⟩ => by show 0 = if (1 : Nat) = 1 then 0 else r.val; rw [if_pos rfl]
    | ⟨1, _⟩ => by show 0 = if (1 : Nat) = 1 then 0 else p.val; rw [if_pos rfl]
    | ⟨2, _⟩ => by show 0 = if (1 : Nat) = 1 then 0 else 0; rw [if_pos rfl])).trans ?_
  refine shapeCast_apply b h1 (ix3 0 0 0) (ix1 0) ?_
  rw [Shape.rowMajor_val_three, Shape.rowMajor_val_one]
  show 0 = (0 * 1 + 0) * 1 + 0
  omega

/-- A [16,64] array with a unit axis added, read at `(r, p, 0)`. -/
theorem cast_unit_apply {α : Type} (y : S16x64.Idx → α) (h : S16x64.ShapeCasts S16x64x1) (r : Fin 16) (p : Fin 64) :
    shapeCast S16x64x1 y h (ix3 r p 0) = y (ix2 r p) := by
  refine shapeCast_apply y h (ix3 r p 0) (ix2 r p) ?_
  rw [Shape.rowMajor_val_three, Shape.rowMajor_val_two]
  show r.val * 64 + p.val = (r.val * 64 + p.val) * 1 + 0
  omega

/-- A [16,1] column, one entry per batch row, broadcast over the 64 positions. -/
theorem col_bcast_apply {α : Type} (y : S16x1.Idx → α) (h1 : S16x1.ShapeCasts S16x1x1) (h2 : S16x1x1.Broadcasts S16x64x1)
    (r : Fin 16) (p : Fin 64) :
    broadcastTo S16x64x1 (shapeCast S16x1x1 y h1) h2 (ix3 r p 0) = y (ix2 r 0) := by
  refine (broadcastTo_apply (shapeCast S16x1x1 y h1) h2 (ix3 r p 0) (ix3 r 0 0) (fun a => match a with
    | ⟨0, _⟩ => by show r.val = if (16 : Nat) = 1 then 0 else r.val; rw [if_neg (by decide)]
    | ⟨1, _⟩ => by show 0 = if (1 : Nat) = 1 then 0 else p.val; rw [if_pos rfl]
    | ⟨2, _⟩ => by show 0 = if (1 : Nat) = 1 then 0 else 0; rw [if_pos rfl])).trans ?_
  refine shapeCast_apply y h1 (ix3 r 0 0) (ix2 r 0) ?_
  rw [Shape.rowMajor_val_three, Shape.rowMajor_val_two]
  show r.val * 1 + 0 = (r.val * 1 + 0) * 1 + 0
  omega

/-! ## The two reductions read at an element -/

/-- The lane sum over the 1024 units. -/
theorem lanesum_apply (y : FVec Ideal S16x64x1024 .f32) (h : S16x64x1024.Reduces [2] S16x64) (hφ : FKind.Formats .f32)
    (hacc : (0x00000000#32 : BitVec 32) = FKind.add.neutral .f32 hφ) (r : Fin 16) (p : Fin 64) :
    multiReduction .add [2] S16x64 y 0x00000000#32 h hφ hacc (ix2 r p) = ∑ u : Fin 1024, y (ix3 r p u) := by
  refine (Ideal.multiReduction_add_single y 0x00000000#32 h hφ hacc (ix2 r p)).trans ?_
  show ∑ u : Fin 1024, y (h.lift (ix2 r p) u) = ∑ u : Fin 1024, y (ix3 r p u)
  refine Finset.sum_congr rfl fun u _ => congrArg y (funext fun a => Fin.ext ?_)
  match a with
  | ⟨0, _⟩ => rfl
  | ⟨1, _⟩ => rfl
  | ⟨2, _⟩ => rfl

/-- The word of −∞ is the bottom of the extended reals. -/
theorem ofBits_neg_inf : Ideal.ofBits .f32 0xFF800000#32 = ⊥ := by simp [Ideal.ofBits, Ideal.ieee]

/-- The row maximum over the 64 positions: the fold of `max` from −∞. -/
theorem rowmax_apply (y : FVec Ideal S16x64x1 .f32) (h : S16x64x1.Reduces [1] S16x1) (hφ : FKind.Formats .f32)
    (hacc : (0xFF800000#32 : BitVec 32) = FKind.maximumf.neutral .f32 hφ) (r : Fin 16) :
    multiReduction .maximumf [1] S16x1 y 0xFF800000#32 h hφ hacc (ix2 r 0)
      = (Finset.univ : Finset (Fin 64)).fold max ⊥ (fun q => y (ix3 r q 0)) := by
  refine (Ideal.multiReduction_maximumf_single y 0xFF800000#32 h hφ hacc (ix2 r 0)).trans ?_
  show (Finset.univ : Finset (Fin 64)).fold max (Ideal.ofBits .f32 0xFF800000#32) (y ∘ h.lift (ix2 r 0)) = _
  rw [ofBits_neg_inf]
  refine Finset.fold_congr fun q _ => congrArg y (funext fun a => Fin.ext ?_)
  match a with
  | ⟨0, _⟩ => rfl
  | ⟨1, _⟩ => rfl
  | ⟨2, _⟩ => rfl

/-! ## The body's intermediate values -/

/-- The features' projection over the block: the first product cut back into positions, plus the first bias. -/
def featV (x0 : Vec Ideal S16x64x2048 .f32) (w1 : Vec Ideal S2048x1024 .bf16) (bb1 : Vec Ideal S1024 .f32) :
    FVec Ideal S16x64x1024 .f32 :=
  have v1 : FVec Ideal S16x64x2048 .bf16 := truncf .bf16 x0 bitsLt_bf16_f32
  have v2 : FVec Ideal S1024x2048 .bf16 := shapeCast S1024x2048 v1 shapeCasts_S16x64x2048_S1024x2048
  have v4 : FVec Ideal S2048x1024 .bf16 := shapeCast S2048x1024 w1 shapeCasts_S2048x1024_S2048x1024
  have cst : FVec Ideal S1024x1024 .f32 := constant S1024x1024 .f32 0x00000000#32
  have v5 : FVec Ideal S1024x1024 .f32 := matmul dot_S1024x2048_S2048x1024_S1024x1024_1_0_0_1_n_n none v2 v4 cst
  have v6 : FVec Ideal S16x64x1024 .f32 := shapeCast S16x64x1024 v5 shapeCasts_S1024x1024_S16x64x1024
  have v8 : FVec Ideal S1x1x1024 .f32 := shapeCast S1x1x1024 bb1 shapeCasts_S1024_S1x1x1024
  have v9 : FVec Ideal S16x64x1024 .f32 := broadcastTo S16x64x1024 v8 broadcasts_S1x1x1024_S16x64x1024
  addf v6 v9

/-- The hidden states' projection over the block's 16 rows: the second product plus the second bias. -/
def hidV (x1 : Vec Ideal S16x1024 .f32) (w2 : Vec Ideal S1024x1024 .bf16) (bb2 : Vec Ideal S1024 .f32) :
    FVec Ideal S16x1024 .f32 :=
  have v12 : FVec Ideal S16x1024 .bf16 := truncf .bf16 x1 bitsLt_bf16_f32
  have v14 : FVec Ideal S1024x1024 .bf16 := shapeCast S1024x1024 w2 shapeCasts_S1024x1024_S1024x1024
  have cst_9 : FVec Ideal S16x1024 .f32 := constant S16x1024 .f32 0x00000000#32
  have v15 : FVec Ideal S16x1024 .f32 := matmul dot_S16x1024_S1024x1024_S16x1024_1_0_0_1_n_n none v12 v14 cst_9
  have v17 : FVec Ideal S1x1024 .f32 := shapeCast S1x1024 bb2 shapeCasts_S1024_S1x1024
  have v18 : FVec Ideal S16x1024 .f32 := broadcastTo S16x1024 v17 broadcasts_S1x1024_S16x1024
  addf v15 v18

/-- The activations over the block. -/
def actV (x0 : Vec Ideal S16x64x2048 .f32) (w1 : Vec Ideal S2048x1024 .bf16) (bb1 : Vec Ideal S1024 .f32)
    (x1 : Vec Ideal S16x1024 .f32) (w2 : Vec Ideal S1024x1024 .bf16) (bb2 : Vec Ideal S1024 .f32) :
    FVec Ideal S16x64x1024 .f32 :=
  have v20 : FVec Ideal S16x1x1024 .f32 := shapeCast S16x1x1024 (hidV x1 w2 bb2) shapeCasts_S16x1024_S16x1x1024
  have v21 : FVec Ideal S16x64x1024 .f32 := broadcastTo S16x64x1024 v20 broadcasts_S16x1x1024_S16x64x1024
  have v22 : FVec Ideal S16x64x1024 .f32 := addf (featV x0 w1 bb1) v21
  tanh v22

/-- The logits over the block, as a [16,64,1] vector. -/
def logitV (x0 : Vec Ideal S16x64x2048 .f32) (w1 : Vec Ideal S2048x1024 .bf16) (bb1 : Vec Ideal S1024 .f32)
    (x1 : Vec Ideal S16x1024 .f32) (w2 : Vec Ideal S1024x1024 .bf16) (bb2 : Vec Ideal S1024 .f32)
    (vv : Vec Ideal S1x1024 .f32) (vvb : Vec Ideal S1 .f32) : FVec Ideal S16x64x1 .f32 :=
  have v25 : FVec Ideal S1x1024 .f32 := shapeCast S1x1024 vv shapeCasts_S1x1024_S1x1024
  have v26 : FVec Ideal S1x1x1024 .f32 := shapeCast S1x1x1024 v25 shapeCasts_S1x1024_S1x1x1024
  have v27 : FVec Ideal S16x64x1024 .f32 := broadcastTo S16x64x1024 v26 broadcasts_S1x1x1024_S16x64x1024
  have v28 : FVec Ideal S16x64x1024 .f32 := mulf (actV x0 w1 bb1 x1 w2 bb2) v27
  have v29 : FVec Ideal S16x64 .f32 := multiReduction .add [2] S16x64 v28 0x00000000#32 reduces_S16x64x1024_S16x64 (.inl rfl) rfl
  have v30 : FVec Ideal S16x64x1 .f32 := shapeCast S16x64x1 v29 shapeCasts_S16x64_S16x64x1
  have v32 : FVec Ideal S1x1x1 .f32 := shapeCast S1x1x1 vvb shapeCasts_S1_S1x1x1
  have v33 : FVec Ideal S16x64x1 .f32 := broadcastTo S16x64x1 v32 broadcasts_S1x1x1_S16x64x1
  addf v30 v33

/-- The row maxima of the logits, as a [16,1] column. -/
def maxV (x0 : Vec Ideal S16x64x2048 .f32) (w1 : Vec Ideal S2048x1024 .bf16) (bb1 : Vec Ideal S1024 .f32)
    (x1 : Vec Ideal S16x1024 .f32) (w2 : Vec Ideal S1024x1024 .bf16) (bb2 : Vec Ideal S1024 .f32)
    (vv : Vec Ideal S1x1024 .f32) (vvb : Vec Ideal S1 .f32) : FVec Ideal S16x1 .f32 :=
  multiReduction .maximumf [1] S16x1 (logitV x0 w1 bb1 x1 w2 bb2 vv vvb) 0xFF800000#32 reduces_S16x64x1_S16x1 (.inl rfl) rfl

/-- The payload is the exponential of the logits less the broadcast row maxima. -/
theorem pay4_eq (x0 : Vec Ideal S16x64x2048 .f32) (w1 : Vec Ideal S2048x1024 .bf16) (bb1 : Vec Ideal S1024 .f32)
    (x1 : Vec Ideal S16x1024 .f32) (w2 : Vec Ideal S1024x1024 .bf16) (bb2 : Vec Ideal S1024 .f32)
    (vv : Vec Ideal S1x1024 .f32) (vvb : Vec Ideal S1 .f32) :
    k0_pay4 (F := Ideal) x0 w1 bb1 x1 w2 bb2 vv vvb
      = exp (subf (logitV x0 w1 bb1 x1 w2 bb2 vv vvb)
          (broadcastTo S16x64x1 (shapeCast S16x1x1 (maxV x0 w1 bb1 x1 w2 bb2 vv vvb) shapeCasts_S16x1_S16x1x1)
            broadcasts_S16x1x1_S16x64x1)) := rfl

/-! ## Each value at an element -/

/-- The features' projection at row `r`, position `p`, unit `u`. -/
theorem featV_apply (x0 : Vec Ideal S16x64x2048 .f32) (w1 : Vec Ideal S2048x1024 .bf16) (bb1 : Vec Ideal S1024 .f32)
    (r : Fin 16) (p : Fin 64) (u : Fin 1024) :
    featV x0 w1 bb1 (ix3 r p u)
      = featProj (fun p f => x0 (ix3 r p f)) (fun f u => w1 (ix2 f u)) (fun u => bb1 (ix1 u)) p u := by
  unfold featV featProj
  refine (addf_apply _ _ _).trans ?_
  refine congrArg₂ (· + ·) ?_ (bias3_apply bb1 _ _ r p u)
  refine (cast_unflat_apply _ _ r p u).trans ?_
  refine (matmul1_apply _ _ (flat r p) u).trans ?_
  refine Finset.sum_congr rfl fun f _ => ?_
  refine congrArg₂ (· * ·) ?_ ?_
  · exact cast_flat_apply _ _ r p f
  · exact congrFun (shapeCast_self w1 _) (ix2 f u)

/-- The hidden state's projection at row `r`, unit `u`. -/
theorem hidV_apply (x1 : Vec Ideal S16x1024 .f32) (w2 : Vec Ideal S1024x1024 .bf16) (bb2 : Vec Ideal S1024 .f32)
    (r : Fin 16) (u : Fin 1024) :
    hidV x1 w2 bb2 (ix2 r u)
      = hidProj (fun k => x1 (ix2 r k)) (fun k u => w2 (ix2 k u)) (fun u => bb2 (ix1 u)) u := by
  unfold hidV hidProj
  refine (addf_apply _ _ _).trans ?_
  refine congrArg₂ (· + ·) ?_ (bias2_apply bb2 _ _ r u)
  refine (matmul2_apply _ _ r u).trans ?_
  refine Finset.sum_congr rfl fun k _ => ?_
  refine congrArg₂ (· * ·) rfl ?_
  exact congrFun (shapeCast_self w2 _) (ix2 k u)

/-- The activation at row `r`, position `p`, unit `u`. -/
theorem actV_apply (x0 : Vec Ideal S16x64x2048 .f32) (w1 : Vec Ideal S2048x1024 .bf16) (bb1 : Vec Ideal S1024 .f32)
    (x1 : Vec Ideal S16x1024 .f32) (w2 : Vec Ideal S1024x1024 .bf16) (bb2 : Vec Ideal S1024 .f32)
    (r : Fin 16) (p : Fin 64) (u : Fin 1024) :
    actV x0 w1 bb1 x1 w2 bb2 (ix3 r p u)
      = act (fun p f => x0 (ix3 r p f)) (fun k => x1 (ix2 r k)) (fun f u => w1 (ix2 f u)) (fun u => bb1 (ix1 u))
          (fun k u => w2 (ix2 k u)) (fun u => bb2 (ix1 u)) p u := by
  unfold actV act
  refine congrArg Ideal.tanh ?_
  refine (addf_apply _ _ _).trans ?_
  refine congrArg₂ (· + ·) (featV_apply x0 w1 bb1 r p u) ?_
  exact (rows_bcast_apply _ _ _ r p u).trans (hidV_apply x1 w2 bb2 r u)

/-- The logit at row `r`, position `p`. -/
theorem logitV_apply (x0 : Vec Ideal S16x64x2048 .f32) (w1 : Vec Ideal S2048x1024 .bf16) (bb1 : Vec Ideal S1024 .f32)
    (x1 : Vec Ideal S16x1024 .f32) (w2 : Vec Ideal S1024x1024 .bf16) (bb2 : Vec Ideal S1024 .f32)
    (vv : Vec Ideal S1x1024 .f32) (vvb : Vec Ideal S1 .f32) (r : Fin 16) (p : Fin 64) :
    logitV x0 w1 bb1 x1 w2 bb2 vv vvb (ix3 r p 0)
      = logit (fun p f => x0 (ix3 r p f)) (fun k => x1 (ix2 r k)) (fun f u => w1 (ix2 f u)) (fun u => bb1 (ix1 u))
          (fun k u => w2 (ix2 k u)) (fun u => bb2 (ix1 u)) (fun u => vv (ix2 0 u)) (vvb (ix1 0)) p := by
  unfold logitV logit
  refine (addf_apply _ _ _).trans ?_
  refine congrArg₂ (· + ·) ?_ (vb_bcast_apply vvb _ _ r p)
  refine (cast_unit_apply _ _ r p).trans ?_
  refine (lanesum_apply _ reduces_S16x64x1024_S16x64 (.inl rfl) rfl r p).trans ?_
  refine Finset.sum_congr rfl fun u _ => ?_
  refine (mulf_apply _ _ _).trans ?_
  exact congrArg₂ (· * ·) (actV_apply x0 w1 bb1 x1 w2 bb2 r p u) (score_bcast_apply vv _ _ _ r p u)

/-- The row maximum at row `r`. -/
theorem maxV_apply (x0 : Vec Ideal S16x64x2048 .f32) (w1 : Vec Ideal S2048x1024 .bf16) (bb1 : Vec Ideal S1024 .f32)
    (x1 : Vec Ideal S16x1024 .f32) (w2 : Vec Ideal S1024x1024 .bf16) (bb2 : Vec Ideal S1024 .f32)
    (vv : Vec Ideal S1x1024 .f32) (vvb : Vec Ideal S1 .f32) (r : Fin 16) :
    maxV x0 w1 bb1 x1 w2 bb2 vv vvb (ix2 r 0)
      = logitMax (fun p f => x0 (ix3 r p f)) (fun k => x1 (ix2 r k)) (fun f u => w1 (ix2 f u)) (fun u => bb1 (ix1 u))
          (fun k u => w2 (ix2 k u)) (fun u => bb2 (ix1 u)) (fun u => vv (ix2 0 u)) (vvb (ix1 0)) := by
  unfold maxV logitMax
  refine (rowmax_apply _ reduces_S16x64x1_S16x1 (.inl rfl) rfl r).trans ?_
  exact Finset.fold_congr fun q _ => logitV_apply x0 w1 bb1 x1 w2 bb2 vv vvb r q

end Logits

open Logits

/-- Row `r`, position `p` of the block's exponentials is `expo` of row `r` of the block: the two matrix products
    read as sums, the bias rows and the scoring row broadcast, the lane sum over the 1024 units, the row maximum over
    the 64 positions as the fold of `max` from −∞. -/
theorem pay4_apply (x0 : Vec Ideal S16x64x2048 .f32) (w1 : Vec Ideal S2048x1024 .bf16) (bb1 : Vec Ideal S1024 .f32)
    (x1 : Vec Ideal S16x1024 .f32) (w2 : Vec Ideal S1024x1024 .bf16) (bb2 : Vec Ideal S1024 .f32)
    (vv : Vec Ideal S1x1024 .f32) (vvb : Vec Ideal S1 .f32) (r : Fin 16) (p : Fin 64) :
    k0_pay4 (F := Ideal) x0 w1 bb1 x1 w2 bb2 vv vvb (ix3 r p 0)
      = expo (fun p f => x0 (ix3 r p f)) (fun k => x1 (ix2 r k)) (fun f u => w1 (ix2 f u)) (fun u => bb1 (ix1 u))
          (fun k u => w2 (ix2 k u)) (fun u => bb2 (ix1 u)) (fun u => vv (ix2 0 u)) (vvb (ix1 0)) p := by
  rw [pay4_eq]
  unfold expo
  refine congrArg Ideal.exp ?_
  refine (subf_apply _ _ _).trans ?_
  refine congrArg₂ (· - ·) (logitV_apply x0 w1 bb1 x1 w2 bb2 vv vvb r p) ?_
  exact (col_bcast_apply _ _ _ r p).trans (maxV_apply x0 w1 bb1 x1 w2 bb2 vv vvb r)

end Cert.KernelIdeal.Attn

end
-- ==== Proof.KernelSoftmax.lean ====
/-
  The second half of the kernel body at one element, on the extended reals, from the block's exponentials `E`
  [16, 64, 1]: the normalisation (each exponential over its row's sum) and the context accumulated over four runs of
  16 positions.
-/
import proofs.«139555_j33243046871455_2_alg».proof.Proof.Gen.KernelIdeal.Skeleton
import proofs.«139555_j33243046871455_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Attn

open Cert.KernelIdeal Cert.KernelIdeal.Gen Cert.AdditiveAttention
open Idealize.ShloMosaic Idealize.ShloMosaic.ValueIdx

/-- The normalised weights [16, 64, 1] at row `r`, position `p`. -/
theorem pay1_apply (E : FVec Ideal S16x64x1 .f32) (r : Fin 16) (p : Fin 64) :
    k0_pay1 (F := Ideal) E (ix3 r p 0) = Ideal.div (E (ix3 r p 0)) (∑ q : Fin 64, E (ix3 r q 0)) := by
  unfold k0_pay1
  refine (divf_apply _ _ _).trans ?_
  refine congrArg (Ideal.div _) ?_
  refine (broadcastTo_apply _ _ (ix3 r p 0) (ix3 r 0 0) ?_).trans ?_
  · intro a
    match a with
    | ⟨0, _⟩ => rfl
    | ⟨1, _⟩ => rfl
    | ⟨2, _⟩ => rfl
  refine (shapeCast_apply _ _ (ix3 r 0 0) (ix2 r 0) ?_).trans ?_
  · rw [Shape.rowMajor_val_two, Shape.rowMajor_val_three]
    show r.val * 1 + 0 = (r.val * 1 + 0) * 1 + 0
    omega
  refine (Ideal.multiReduction_add_single E 0x00000000#32 reduces_S16x64x1_S16x1 (.inl rfl) rfl (ix2 r 0)).trans ?_
  refine Finset.sum_congr rfl fun q _ => ?_
  refine congrArg E ?_
  funext a
  match a with
  | ⟨0, _⟩ => rfl
  | ⟨1, _⟩ => rfl
  | ⟨2, _⟩ => rfl

/-- The same laid out as [16, 64]: what the weights' output block holds. -/
theorem pay2_apply (E : FVec Ideal S16x64x1 .f32) (r : Fin 16) (p : Fin 64) :
    k0_pay2 (F := Ideal) E (ix2 r p) = Ideal.div (E (ix3 r p 0)) (∑ q : Fin 64, E (ix3 r q 0)) := by
  unfold k0_pay2
  refine (shapeCast_apply _ _ (ix2 r p) (ix3 r p 0) ?_).trans (pay1_apply E r p)
  rw [Shape.rowMajor_val_three, Shape.rowMajor_val_two]
  show (r.val * 64 + p.val) * 1 + 0 = r.val * 64 + p.val
  omega

/-- One run's weighted sum at row `r`, feature `f`: the 16 products of the run's features with the weights of
    positions `o + q`, where the slice starts at `o = 16c` along the positions. -/
theorem run_apply (A : FVec Ideal S16x64x1 .f32) (cc : Vec Ideal S16x16x2048 .f32) (c : Fin 4)
    (off : Fin 3 → Nat) (h : S16x64x1.Slices off S16x16x1)
    (h0 : off 0 = 0) (h1 : off 1 = 16 * c.val) (h2 : off 2 = 0) (r : Fin 16) (f : Fin 2048) :
    multiReduction (F := Ideal) .add [1] S16x2048
        (mulf cc (broadcastTo S16x16x2048 (extractStridedSlice S16x16x1 off A h) broadcasts_S16x16x1_S16x16x2048))
        0x00000000#32 reduces_S16x16x2048_S16x2048 (.inl rfl) rfl (ix2 r f)
      = ∑ q : Fin 16, A (ix3 r (pos c q) 0) * cc (ix3 r q f) := by
  refine (Ideal.multiReduction_add_single _ 0x00000000#32 reduces_S16x16x2048_S16x2048 (.inl rfl) rfl (ix2 r f)).trans ?_
  refine Finset.sum_congr rfl fun q _ => ?_
  have e : reduces_S16x16x2048_S16x2048.lift (ix2 r f) q = ix3 r q f := by
    funext a
    match a with
    | ⟨0, _⟩ => rfl
    | ⟨1, _⟩ => rfl
    | ⟨2, _⟩ => rfl
  refine (congrArg _ e).trans ?_
  refine (mulf_apply _ _ _).trans ?_
  refine (mul_comm _ _).trans ?_
  refine congrArg (· * cc (ix3 r q f)) ?_
  refine (broadcastTo_apply _ _ (ix3 r q f) (ix3 r q 0) ?_).trans ?_
  · intro a
    match a with
    | ⟨0, _⟩ => rfl
    | ⟨1, _⟩ => rfl
    | ⟨2, _⟩ => rfl
  refine extractStridedSlice_apply off A h (ix3 r q 0) (ix3 r (pos c q) 0) ?_
  intro a
  match a with
  | ⟨0, _⟩ => show r.val = off 0 + r.val; omega
  | ⟨1, _⟩ => show 16 * c.val + q.val = off 1 + q.val; omega
  | ⟨2, _⟩ => show 0 = off 2 + 0; omega

/-- The context [16, 2048] at row `r`, feature `f`: from zero, the four runs' weighted sums added in order, run `c`
    pairing the features `cc` [16, 16, 2048] of positions 16c … 16c+15 with those positions' weights. -/
theorem pay3_apply (E : FVec Ideal S16x64x1 .f32) (c0 c1 c2 c3 : Vec Ideal S16x16x2048 .f32) (r : Fin 16) (f : Fin 2048) :
    k0_pay3 (F := Ideal) E c0 c1 c2 c3 (ix2 r f)
      = (((0 + ∑ q : Fin 16, k0_pay1 (F := Ideal) E (ix3 r (pos 0 q) 0) * c0 (ix3 r q f))
            + ∑ q : Fin 16, k0_pay1 (F := Ideal) E (ix3 r (pos 1 q) 0) * c1 (ix3 r q f))
          + ∑ q : Fin 16, k0_pay1 (F := Ideal) E (ix3 r (pos 2 q) 0) * c2 (ix3 r q f))
        + ∑ q : Fin 16, k0_pay1 (F := Ideal) E (ix3 r (pos 3 q) 0) * c3 (ix3 r q f) := by
  unfold k0_pay3
  generalize k0_pay1 (F := Ideal) E = A
  refine (addf_apply _ _ _).trans ?_
  refine congrArg₂ (· + ·) ?_ (run_apply A c3 3 _ slices_S16x64x1_o0_48_0_S16x16x1 rfl rfl rfl r f)
  refine (addf_apply _ _ _).trans ?_
  refine congrArg₂ (· + ·) ?_ (run_apply A c2 2 _ slices_S16x64x1_o0_32_0_S16x16x1 rfl rfl rfl r f)
  refine (addf_apply _ _ _).trans ?_
  refine congrArg₂ (· + ·) ?_ (run_apply A c1 1 _ slices_S16x64x1_o0_16_0_S16x16x1 rfl rfl rfl r f)
  refine (addf_apply _ _ _).trans ?_
  refine congrArg₂ (· + ·) ?_ (run_apply A c0 0 _ slices_S16x64x1_o0_0_0_S16x16x1 rfl rfl rfl r f)
  exact Ideal.ofBits_zero_f32

end Cert.KernelIdeal.Attn

end
-- ==== Proof.KernelBlock.lean ====
/-
  What the kernel body leaves in its two output blocks, element by element on the extended reals, for a block of 16
  batch rows: the weights' block [16, 64] holds each row's attention weights, and the context block [16, 2048] each
  row's context vector, both as the row function of the block's own rows of features and hidden states.
-/
import proofs.«139555_j33243046871455_2_alg».proof.Proof.Gen.KernelIdeal.Frame
import proofs.«139555_j33243046871455_2_alg».proof.Proof.KernelLogits
import proofs.«139555_j33243046871455_2_alg».proof.Proof.KernelSoftmax
import proofs.«139555_j33243046871455_2_alg».proof.Proof.Spec
import Idealize.ShloMosaic.Lib.ValueIdx
import Idealize.ShloMosaic.Lib.Pipeline.Value

set_option maxRecDepth 16384

noncomputable section

namespace Cert.KernelIdeal.Attn

open Cert.KernelIdeal Cert.KernelIdeal.Gen Cert.AdditiveAttention
open Idealize.ShloMosaic Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (x0 : Vec Ideal S16x64x2048 .f32) (x1 : Vec Ideal S16x1024 .f32) (x2 : Vec Ideal S2048x1024 .bf16)
  (x3 : Vec Ideal S1024 .f32) (x4 : Vec Ideal S1024x1024 .bf16) (x5 : Vec Ideal S1024 .f32)
  (x6 : Vec Ideal S1x1024 .f32) (x7 : Vec Ideal S1 .f32)

/-- The weights' block is the normalisation of the block's exponentials. -/
theorem out0_9_eq : out0_9 (F := Ideal) x0 x1 x2 x3 x4 x5 x6 x7 = k0_pay2 (F := Ideal) (k0_pay4 (F := Ideal) x0 x2 x3 x1 x4 x5 x6 x7) := by
  unfold out0_9
  rw [View.canon_unit_zero hz2]
  simp only [View.ld_unit_zero (S := S16x64x2048) hz3, View.ld_unit_zero (S := S2048x1024) hz2, View.ld_unit_zero (S := S1024) hz1,
    View.ld_unit_zero (S := S16x1024) hz2, View.ld_unit_zero (S := S1024x1024) hz2, View.ld_unit_zero (S := S1x1024) hz2,
    View.ld_unit_zero (S := S1) hz1]

/-- Row `r` of the weights' block: the attention weights of the block's row `r`. -/
theorem out0_9_apply (r : Fin 16) (p : Fin 64) :
    out0_9 (F := Ideal) x0 x1 x2 x3 x4 x5 x6 x7 (ix2 r p)
      = weight (fun p f => x0 (ix3 r p f)) (fun k => x1 (ix2 r k)) (fun f u => x2 (ix2 f u)) (fun u => x3 (ix1 u))
          (fun k u => x4 (ix2 k u)) (fun u => x5 (ix1 u)) (fun u => x6 (ix2 0 u)) (x7 (ix1 0)) p := by
  rw [out0_9_eq, pay2_apply]
  simp only [pay4_apply]
  rfl

/-- The context block's one store: the accumulated runs over the block's exponentials and the four runs of 16
    positions of the features block. -/
theorem out0_8_eq : out0_8 (F := Ideal) x0 x1 x2 x3 x4 x5 x6 x7
    = k0_pay3 (F := Ideal) (k0_pay4 (F := Ideal) x0 x2 x3 x1 x4 x5 x6 x7) (View.ld x0 r0_8) (View.ld x0 r0_9) (View.ld x0 r0_10) (View.ld x0 r0_11) := by
  unfold out0_8
  rw [View.canon_unit_zero hz2]
  simp only [View.ld_unit_zero (S := S16x64x2048) hz3, View.ld_unit_zero (S := S2048x1024) hz2, View.ld_unit_zero (S := S1024) hz1,
    View.ld_unit_zero (S := S16x1024) hz2, View.ld_unit_zero (S := S1024x1024) hz2, View.ld_unit_zero (S := S1x1024) hz2,
    View.ld_unit_zero (S := S1) hz1]

/-- Run `c` of the features block, re-read from the block: positions 16c … 16c+15. -/
theorem ld_run0 (r : Fin 16) (q : Fin 16) (f : Fin 2048) : View.ld x0 r0_8 (ix3 r q f) = x0 (ix3 r (pos 0 q) f) := by
  show x0 (r0_8.idx (ix3 r q f)) = _
  refine congrArg x0 (funext fun a => Fin.ext ?_)
  match a with
  | ⟨0, _⟩ => show 0 + 1 * r.val = r.val; omega
  | ⟨1, _⟩ => show 0 + 1 * q.val = 16 * 0 + q.val; omega
  | ⟨2, _⟩ => show 0 + 1 * f.val = f.val; omega
theorem ld_run1 (r : Fin 16) (q : Fin 16) (f : Fin 2048) : View.ld x0 r0_9 (ix3 r q f) = x0 (ix3 r (pos 1 q) f) := by
  show x0 (r0_9.idx (ix3 r q f)) = _
  refine congrArg x0 (funext fun a => Fin.ext ?_)
  match a with
  | ⟨0, _⟩ => show 0 + 1 * r.val = r.val; omega
  | ⟨1, _⟩ => show 16 + 1 * q.val = 16 * 1 + q.val; omega
  | ⟨2, _⟩ => show 0 + 1 * f.val = f.val; omega
theorem ld_run2 (r : Fin 16) (q : Fin 16) (f : Fin 2048) : View.ld x0 r0_10 (ix3 r q f) = x0 (ix3 r (pos 2 q) f) := by
  show x0 (r0_10.idx (ix3 r q f)) = _
  refine congrArg x0 (funext fun a => Fin.ext ?_)
  match a with
  | ⟨0, _⟩ => show 0 + 1 * r.val = r.val; omega
  | ⟨1, _⟩ => show 32 + 1 * q.val = 16 * 2 + q.val; omega
  | ⟨2, _⟩ => show 0 + 1 * f.val = f.val; omega
theorem ld_run3 (r : Fin 16) (q : Fin 16) (f : Fin 2048) : View.ld x0 r0_11 (ix3 r q f) = x0 (ix3 r (pos 3 q) f) := by
  show x0 (r0_11.idx (ix3 r q f)) = _
  refine congrArg x0 (funext fun a => Fin.ext ?_)
  match a with
  | ⟨0, _⟩ => show 0 + 1 * r.val = r.val; omega
  | ⟨1, _⟩ => show 48 + 1 * q.val = 16 * 3 + q.val; omega
  | ⟨2, _⟩ => show 0 + 1 * f.val = f.val; omega

/-- Row `r` of the context block: the context vector of the block's row `r` — the sum over the 64 positions taken as
    its four runs of 16. -/
theorem out0_8_apply (r : Fin 16) (f : Fin 2048) :
    out0_8 (F := Ideal) x0 x1 x2 x3 x4 x5 x6 x7 (ix2 r f)
      = context (fun p f => x0 (ix3 r p f)) (fun k => x1 (ix2 r k)) (fun f u => x2 (ix2 f u)) (fun u => x3 (ix1 u))
          (fun k u => x4 (ix2 k u)) (fun u => x5 (ix1 u)) (fun u => x6 (ix2 0 u)) (x7 (ix1 0)) f := by
  rw [out0_8_eq, pay3_apply]
  have hw : ∀ p : Fin 64, k0_pay1 (F := Ideal) (k0_pay4 (F := Ideal) x0 x2 x3 x1 x4 x5 x6 x7) (ix3 r p 0)
      = weight (fun p f => x0 (ix3 r p f)) (fun k => x1 (ix2 r k)) (fun f u => x2 (ix2 f u)) (fun u => x3 (ix1 u))
          (fun k u => x4 (ix2 k u)) (fun u => x5 (ix1 u)) (fun u => x6 (ix2 0 u)) (x7 (ix1 0)) p := fun p => by
    rw [pay1_apply]; simp only [pay4_apply]; rfl
  refine Eq.trans ?_ (sum_runs (fun p => weight (fun p f => x0 (ix3 r p f)) (fun k => x1 (ix2 r k)) (fun f u => x2 (ix2 f u)) (fun u => x3 (ix1 u))
          (fun k u => x4 (ix2 k u)) (fun u => x5 (ix1 u)) (fun u => x6 (ix2 0 u)) (x7 (ix1 0)) p * x0 (ix3 r p f))).symm
  refine congrArg₂ (· + ·) (congrArg₂ (· + ·) (congrArg₂ (· + ·) (congrArg (0 + ·) ?_) ?_) ?_) ?_
  · exact Finset.sum_congr rfl fun q _ => by rw [hw, ld_run0]
  · exact Finset.sum_congr rfl fun q _ => by rw [hw, ld_run1]
  · exact Finset.sum_congr rfl fun q _ => by rw [hw, ld_run2]
  · exact Finset.sum_congr rfl fun q _ => by rw [hw, ld_run3]

end Cert.KernelIdeal.Attn

end
-- ==== Proof.KernelArrays.lean ====
/-
  From blocks to arrays. Grid point `t` of the 16 works on batch rows 16t … 16t+15: its block of the features and of
  the hidden states are those rows, the weight matrices, bias vectors and the scoring row are whole at every point, and
  what it writes back is rows 16t … 16t+15 of the two results. The matrices the region finds were narrowed to bf16
  before it (the identity on the extended reals) and the scoring column was transposed into a row. Every batch row
  lies in exactly one point's block, so after the run the two output arrays hold, row by row, the weights and the
  context vectors of the argument arrays.
-/
import proofs.«139555_j33243046871455_2_alg».proof.Proof.Gen.KernelIdeal.Frame
import proofs.«139555_j33243046871455_2_alg».proof.Proof.KernelBlock
import proofs.«139555_j33243046871455_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Attn

open Cert.KernelIdeal Cert.KernelIdeal.Gen Cert.AdditiveAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays as the region finds them, and the blocks, at their literal types -/

abbrev arr0 (c : Dev nD) : Vec Ideal S256x64x2048 .f32 := V m c main_arg0
abbrev arr1 (c : Dev nD) : Vec Ideal S256x1024 .f32 := V m c main_arg1
abbrev arr2 (c : Dev nD) : Vec Ideal S2048x1024 .bf16 := V m c main_v0
abbrev arr3 (c : Dev nD) : Vec Ideal S1024 .f32 := V m c main_arg3
abbrev arr4 (c : Dev nD) : Vec Ideal S1024x1024 .bf16 := V m c main_v1
abbrev arr5 (c : Dev nD) : Vec Ideal S1024 .f32 := V m c main_arg5
abbrev arr6 (c : Dev nD) : Vec Ideal S1x1024 .f32 := V m c main_v2
abbrev arr7 (c : Dev nD) : Vec Ideal S1 .f32 := V m c main_arg7

abbrev blk0 (c : Dev nD) (t : Fin cfg0.N) : Vec Ideal S16x64x2048 .f32 := iblk m c 0 t
abbrev blk1 (c : Dev nD) (t : Fin cfg0.N) : Vec Ideal S16x1024 .f32 := iblk m c 1 t
abbrev blk2 (c : Dev nD) (t : Fin cfg0.N) : Vec Ideal S2048x1024 .bf16 := iblk m c 2 t
abbrev blk3 (c : Dev nD) (t : Fin cfg0.N) : Vec Ideal S1024 .f32 := iblk m c 3 t
abbrev blk4 (c : Dev nD) (t : Fin cfg0.N) : Vec Ideal S1024x1024 .bf16 := iblk m c 4 t
abbrev blk5 (c : Dev nD) (t : Fin cfg0.N) : Vec Ideal S1024 .f32 := iblk m c 5 t
abbrev blk6 (c : Dev nD) (t : Fin cfg0.N) : Vec Ideal S1x1024 .f32 := iblk m c 6 t
abbrev blk7 (c : Dev nD) (t : Fin cfg0.N) : Vec Ideal S1 .f32 := iblk m c 7 t

/-- Batch row `16t + r`: row `r` of point `t`'s block. -/
def rowAt (t : Fin cfg0.N) (r : Fin 16) : Fin 256 := ⟨16 * t.val + r.val, by have ht : t.val < 16 := lt_of_lt_of_eq t.isLt N_0; have := r.isLt; omega⟩

/-- The printed index maps over the grid: the row-blocked windows are at block `t` on the batch axis, every other
    block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Each block read where it lies in its array -/

theorem blk0_apply (c : Dev nD) (t : Fin cfg0.N) (r : Fin 16) (p : Fin 64) (f : Fin 2048) :
    blk0 m c t (ix3 r p f) = arr0 m c (ix3 (rowAt t r) p f) := by
  obtain ⟨e0, e1, e2, -⟩ := idx_facts t
  show V m c main_arg0 (((cfg0.win 0).blk t).view.emb (ix3 r p f)) = V m c main_arg0 (ix3 (rowAt t r) p f)
  refine congrArg (V m c main_arg0) (funext fun a => Fin.ext ?_)
  match a with
  | ⟨0, _⟩ => show win0_0.index t (0 : Fin 3) * 16 + 1 * r.val = 16 * t.val + r.val; omega
  | ⟨1, _⟩ => show win0_0.index t (1 : Fin 3) * 64 + 1 * p.val = p.val; omega
  | ⟨2, _⟩ => show win0_0.index t (2 : Fin 3) * 2048 + 1 * f.val = f.val; omega

theorem blk1_apply (c : Dev nD) (t : Fin cfg0.N) (r : Fin 16) (k : Fin 1024) :
    blk1 m c t (ix2 r k) = arr1 m c (ix2 (rowAt t r) k) := by
  obtain ⟨-, -, -, e0, e1, -⟩ := idx_facts t
  show V m c main_arg1 (((cfg0.win 1).blk t).view.emb (ix2 r k)) = V m c main_arg1 (ix2 (rowAt t r) k)
  refine congrArg (V m c main_arg1) (funext fun a => Fin.ext ?_)
  match a with
  | ⟨0, _⟩ => show win0_1.index t (0 : Fin 2) * 16 + 1 * r.val = 16 * t.val + r.val; omega
  | ⟨1, _⟩ => show win0_1.index t (1 : Fin 2) * 1024 + 1 * k.val = k.val; omega

theorem blk2_apply (c : Dev nD) (t : Fin cfg0.N) (f : Fin 2048) (u : Fin 1024) :
    blk2 m c t (ix2 f u) = arr2 m c (ix2 f u) := by
  obtain ⟨-, -, -, -, -, e0, e1, -⟩ := idx_facts t
  show V m c main_v0 (((cfg0.win 2).blk t).view.emb (ix2 f u)) = V m c main_v0 (ix2 f u)
  refine congrArg (V m c main_v0) (funext fun a => Fin.ext ?_)
  match a with
  | ⟨0, _⟩ => show win0_2.index t (0 : Fin 2) * 2048 + 1 * f.val = f.val; omega
  | ⟨1, _⟩ => show win0_2.index t (1 : Fin 2) * 1024 + 1 * u.val = u.val; omega

theorem blk3_apply (c : Dev nD) (t : Fin cfg0.N) (u : Fin 1024) :
    blk3 m c t (ix1 u) = arr3 m c (ix1 u) := by
  obtain ⟨-, -, -, -, -, -, -, e0, -⟩ := idx_facts t
  show V m c main_arg3 (((cfg0.win 3).blk t).view.emb (ix1 u)) = V m c main_arg3 (ix1 u)
  refine congrArg (V m c main_arg3) (funext fun a => Fin.ext ?_)
  match a with
  | ⟨0, _⟩ => show win0_3.index t (0 : Fin 1) * 1024 + 1 * u.val = u.val; omega

theorem blk4_apply (c : Dev nD) (t : Fin cfg0.N) (k : Fin 1024) (u : Fin 1024) :
    blk4 m c t (ix2 k u) = arr4 m c (ix2 k u) := by
  obtain ⟨-, -, -, -, -, -, -, -, e0, e1, -⟩ := idx_facts t
  show V m c main_v1 (((cfg0.win 4).blk t).view.emb (ix2 k u)) = V m c main_v1 (ix2 k u)
  refine congrArg (V m c main_v1) (funext fun a => Fin.ext ?_)
  match a with
  | ⟨0, _⟩ => show win0_4.index t (0 : Fin 2) * 1024 + 1 * k.val = k.val; omega
  | ⟨1, _⟩ => show win0_4.index t (1 : Fin 2) * 1024 + 1 * u.val = u.val; omega

theorem blk5_apply (c : Dev nD) (t : Fin cfg0.N) (u : Fin 1024) :
    blk5 m c t (ix1 u) = arr5 m c (ix1 u) := by
  obtain ⟨-, -, -, -, -, -, -, -, -, -, e0, -⟩ := idx_facts t
  show V m c main_arg5 (((cfg0.win 5).blk t).view.emb (ix1 u)) = V m c main_arg5 (ix1 u)
  refine congrArg (V m c main_arg5) (funext fun a => Fin.ext ?_)
  match a with
  | ⟨0, _⟩ => show win0_5.index t (0 : Fin 1) * 1024 + 1 * u.val = u.val; omega

theorem blk6_apply (c : Dev nD) (t : Fin cfg0.N) (z : Fin 1) (u : Fin 1024) :
    blk6 m c t (ix2 z u) = arr6 m c (ix2 z u) := by
  obtain ⟨-, -, -, -, -, -, -, -, -, -, -, e0, e1, -⟩ := idx_facts t
  show V m c main_v2 (((cfg0.win 6).blk t).view.emb (ix2 z u)) = V m c main_v2 (ix2 z u)
  refine congrArg (V m c main_v2) (funext fun a => Fin.ext ?_)
  match a with
  | ⟨0, _⟩ => show win0_6.index t (0 : Fin 2) * 1 + 1 * z.val = z.val; omega
  | ⟨1, _⟩ => show win0_6.index t (1 : Fin 2) * 1024 + 1 * u.val = u.val; omega

theorem blk7_apply (c : Dev nD) (t : Fin cfg0.N) (z : Fin 1) :
    blk7 m c t (ix1 z) = arr7 m c (ix1 z) := by
  obtain ⟨-, -, -, -, -, -, -, -, -, -, -, -, -, e0, -⟩ := idx_facts t
  show V m c main_arg7 (((cfg0.win 7).blk t).view.emb (ix1 z)) = V m c main_arg7 (ix1 z)
  refine congrArg (V m c main_arg7) (funext fun a => Fin.ext ?_)
  match a with
  | ⟨0, _⟩ => show win0_7.index t (0 : Fin 1) * 1 + 1 * z.val = z.val; omega

/-! ## What the host lines before the region made of the arguments -/

/-- The first weight matrix narrowed to bf16: on the extended reals, itself. -/
theorem arr2_apply (c : Dev nD) (f : Fin 2048) (u : Fin 1024) :
    arr2 m c (ix2 f u) = m ((c : Thread nD τ).loc main_arg2) (ix2 f u) := by
  have e : (V m c main_v0 : S2048x1024.Idx → EReal) = truncf (F := Ideal) .bf16 (m ((c : Thread nD τ).loc main_arg2)) bitsLt_bf16_f32 := by
    show StableHlo.after hostOps0 (fun b => m (c, b)) (Proc.devRef .tc main_v0) = _
    after_results
  show (V m c main_v0 : S2048x1024.Idx → EReal) (ix2 f u) = _
  rw [e]; rfl

/-- The second weight matrix likewise. -/
theorem arr4_apply (c : Dev nD) (k : Fin 1024) (u : Fin 1024) :
    arr4 m c (ix2 k u) = m ((c : Thread nD τ).loc main_arg4) (ix2 k u) := by
  have e : (V m c main_v1 : S1024x1024.Idx → EReal) = truncf (F := Ideal) .bf16 (m ((c : Thread nD τ).loc main_arg4)) bitsLt_bf16_f32 := by
    show StableHlo.after hostOps0 (fun b => m (c, b)) (Proc.devRef .tc main_v1) = _
    after_results
  show (V m c main_v1 : S1024x1024.Idx → EReal) (ix2 k u) = _
  rw [e]; rfl

/-- The scoring column [1024, 1] transposed into a row [1, 1024]. -/
theorem arr6_apply (c : Dev nD) (u : Fin 1024) :
    arr6 m c (ix2 0 u) = m ((c : Thread nD τ).loc main_arg6) (ix2 u 0) := by
  have e : (V m c main_v2 : S1x1024.Idx → EReal) = transpose S1x1024 [1, 0] (m ((c : Thread nD τ).loc main_arg6)) transposes_S1024x1_S1x1024_1_0 := by
    show StableHlo.after hostOps0 (fun b => m (c, b)) (Proc.devRef .tc main_v2) = _
    after_results
  show (V m c main_v2 : S1x1024.Idx → EReal) (ix2 0 u) = _
  rw [e]
  exact transpose_ix2_apply (m ((c : Thread nD τ).loc main_arg6)) transposes_S1024x1_S1x1024_1_0 0 u

/-! ## What a point writes back -/

/-- The weights as a matrix [256, 64] of the argument arrays: row `b` is the row function at batch row `b`. -/
def weightMat (c : Dev nD) : S256x64.Idx → EReal := fun i =>
  weight (fun p f => m ((c : Thread nD τ).loc main_arg0) (ix3 (i 0) p f)) (fun k => m ((c : Thread nD τ).loc main_arg1) (ix2 (i 0) k))
      (fun f u => m ((c : Thread nD τ).loc main_arg2) (ix2 f u)) (fun u => m ((c : Thread nD τ).loc main_arg3) (ix1 u))
      (fun k u => m ((c : Thread nD τ).loc main_arg4) (ix2 k u)) (fun u => m ((c : Thread nD τ).loc main_arg5) (ix1 u))
      (fun u => m ((c : Thread nD τ).loc main_arg6) (ix2 u 0)) (m ((c : Thread nD τ).loc main_arg7) (ix1 0)) (i 1)

/-- The context vectors [256, 2048] of the argument arrays. -/
def contextMat (c : Dev nD) : S256x2048.Idx → EReal := fun i =>
  context (fun p f => m ((c : Thread nD τ).loc main_arg0) (ix3 (i 0) p f)) (fun k => m ((c : Thread nD τ).loc main_arg1) (ix2 (i 0) k))
      (fun f u => m ((c : Thread nD τ).loc main_arg2) (ix2 f u)) (fun u => m ((c : Thread nD τ).loc main_arg3) (ix1 u))
      (fun k u => m ((c : Thread nD τ).loc main_arg4) (ix2 k u)) (fun u => m ((c : Thread nD τ).loc main_arg5) (ix1 u))
      (fun u => m ((c : Thread nD τ).loc main_arg6) (ix2 u 0)) (m ((c : Thread nD τ).loc main_arg7) (ix1 0)) (i 1)

/-- The row function's eight arguments at row `r` of point `t`'s blocks are its arguments at batch row `16t + r`
    of the argument arrays. -/
theorem rowArgs (c : Dev nD) (t : Fin cfg0.N) (r : Fin 16) :
    (fun p f => blk0 m c t (ix3 r p f)) = (fun p f => m ((c : Thread nD τ).loc main_arg0) (ix3 (rowAt t r) p f))
    ∧ (fun k => blk1 m c t (ix2 r k)) = (fun k => m ((c : Thread nD τ).loc main_arg1) (ix2 (rowAt t r) k))
    ∧ (fun f u => blk2 m c t (ix2 f u)) = (fun f u => m ((c : Thread nD τ).loc main_arg2) (ix2 f u))
    ∧ (fun u => blk3 m c t (ix1 u)) = (fun u => m ((c : Thread nD τ).loc main_arg3) (ix1 u))
    ∧ (fun k u => blk4 m c t (ix2 k u)) = (fun k u => m ((c : Thread nD τ).loc main_arg4) (ix2 k u))
    ∧ (fun u => blk5 m c t (ix1 u)) = (fun u => m ((c : Thread nD τ).loc main_arg5) (ix1 u))
    ∧ (fun u => blk6 m c t (ix2 0 u)) = (fun u => m ((c : Thread nD τ).loc main_arg6) (ix2 u 0))
    ∧ blk7 m c t (ix1 0) = m ((c : Thread nD τ).loc main_arg7) (ix1 0) := by
  refine ⟨?_, ?_, ?_, ?_, ?_, ?_, ?_, ?_⟩
  · funext p f; rw [blk0_apply]; exact congrFun (V_main_arg0 m c) _
  · funext k; rw [blk1_apply]; exact congrFun (V_main_arg1 m c) _
  · funext f u; rw [blk2_apply, arr2_apply]
  · funext u; rw [blk3_apply]; exact congrFun (V_main_arg3 m c) _
  · funext k u; rw [blk4_apply, arr4_apply]
  · funext u; rw [blk5_apply]; exact congrFun (V_main_arg5 m c) _
  · funext u; rw [blk6_apply, arr6_apply]
  · rw [blk7_apply]; exact congrFun (V_main_arg7 m c) _

/-- Point `t`'s weights block, element by element. -/
theorem wblock_apply (c : Dev nD) (t : Fin cfg0.N) (r : Fin 16) (p : Fin 64) :
    out0_9 (F := Ideal) (blk0 m c t) (blk1 m c t) (blk2 m c t) (blk3 m c t) (blk4 m c t) (blk5 m c t) (blk6 m c t) (blk7 m c t) (ix2 r p) = weightMat m c (ix2 (rowAt t r) p) := by
  obtain ⟨h0, h1, h2, h3, h4, h5, h6, h7⟩ := rowArgs m c t r
  refine (out0_9_apply (blk0 m c t) (blk1 m c t) (blk2 m c t) (blk3 m c t) (blk4 m c t) (blk5 m c t) (blk6 m c t) (blk7 m c t) r p).trans ?_
  rw [h0, h1, h2, h3, h4, h5, h6, h7]
  rfl

/-- Point `t`'s context block, element by element. -/
theorem cblock_apply (c : Dev nD) (t : Fin cfg0.N) (r : Fin 16) (f : Fin 2048) :
    out0_8 (F := Ideal) (blk0 m c t) (blk1 m c t) (blk2 m c t) (blk3 m c t) (blk4 m c t) (blk5 m c t) (blk6 m c t) (blk7 m c t) (ix2 r f) = contextMat m c (ix2 (rowAt t r) f) := by
  obtain ⟨h0, h1, h2, h3, h4, h5, h6, h7⟩ := rowArgs m c t r
  refine (out0_8_apply (blk0 m c t) (blk1 m c t) (blk2 m c t) (blk3 m c t) (blk4 m c t) (blk5 m c t) (blk6 m c t) (blk7 m c t) r f).trans ?_
  rw [h0, h1, h2, h3, h4, h5, h6, h7]
  rfl

/-- Index `j` of point `t`'s block of the weights' array lies at array index (16t + j₀, j₁); the same for the
    context array. -/
theorem emb9 (t : Fin cfg0.N) (j : S16x64.Idx) : ((cfg0.win 9).blk t).view.emb j = ix2 (rowAt t (j 0)) (j 1) := by
  obtain ⟨-, -, -, -, -, -, -, -, -, -, -, -, -, -, -, -, e0, e1⟩ := idx_facts t
  funext a; apply Fin.ext
  match a with
  | ⟨0, _⟩ => show win0_9.index t (0 : Fin 2) * 16 + 1 * (j 0).val = 16 * t.val + (j 0).val; omega
  | ⟨1, _⟩ => show win0_9.index t (1 : Fin 2) * 64 + 1 * (j 1).val = (j 1).val; omega

theorem emb8 (t : Fin cfg0.N) (j : S16x2048.Idx) : ((cfg0.win 8).blk t).view.emb j = ix2 (rowAt t (j 0)) (j 1) := by
  obtain ⟨-, -, -, -, -, -, -, -, -, -, -, -, -, -, e0, e1, -, -⟩ := idx_facts t
  funext a; apply Fin.ext
  match a with
  | ⟨0, _⟩ => show win0_8.index t (0 : Fin 2) * 16 + 1 * (j 0).val = 16 * t.val + (j 0).val; omega
  | ⟨1, _⟩ => show win0_8.index t (1 : Fin 2) * 2048 + 1 * (j 1).val = (j 1).val; omega

/-- What point `t` writes back to the weights' array is block `t` of the weights matrix of the argument arrays. -/
theorem flushed9_eq (c : Dev nD) (t : Fin cfg0.N) :
    (dats m 0 c).flushed 9 t = ((cfg0.win 9).blk t).view.read (Elt Ideal) (weightMat m c) := by
  show (cfg0.win 9).cut (grid0.coords t) ((dats m 0 c).after 9 t) = _
  rw [after0_9]
  funext j
  show out0_9 (F := Ideal) (blk0 m c t) (blk1 m c t) (blk2 m c t) (blk3 m c t) (blk4 m c t) (blk5 m c t) (blk6 m c t) (blk7 m c t) j = weightMat m c (((cfg0.win 9).blk t).view.emb j)
  exact (congrArg (out0_9 (F := Ideal) (blk0 m c t) (blk1 m c t) (blk2 m c t) (blk3 m c t) (blk4 m c t) (blk5 m c t) (blk6 m c t) (blk7 m c t)) (eq_ix2 j)).trans
    ((wblock_apply m c t (j 0) (j 1)).trans (congrArg (weightMat m c) (emb9 t j).symm))

/-- What point `t` writes back to the context array is block `t` of the context matrix of the argument arrays. -/
theorem flushed8_eq (c : Dev nD) (t : Fin cfg0.N) :
    (dats m 0 c).flushed 8 t = ((cfg0.win 8).blk t).view.read (Elt Ideal) (contextMat m c) := by
  show (cfg0.win 8).cut (grid0.coords t) ((dats m 0 c).after 8 t) = _
  rw [after0_8]
  funext j
  show out0_8 (F := Ideal) (blk0 m c t) (blk1 m c t) (blk2 m c t) (blk3 m c t) (blk4 m c t) (blk5 m c t) (blk6 m c t) (blk7 m c t) j = contextMat m c (((cfg0.win 8).blk t).view.emb j)
  exact (congrArg (out0_8 (F := Ideal) (blk0 m c t) (blk1 m c t) (blk2 m c t) (blk3 m c t) (blk4 m c t) (blk5 m c t) (blk6 m c t) (blk7 m c t)) (eq_ix2 j)).trans
    ((cblock_apply m c t (j 0) (j 1)).trans (congrArg (contextMat m c) (emb8 t j).symm))

/-! ## Every batch row lies in one point's block -/

theorem mem_blk9 (t : Fin cfg0.N) (i : S256x64.Idx) :
    i ∈ ((cfg0.win 9).blk t).view.set ↔ ∀ a : Fin 2, win0_9.index t a * S16x64.size a ≤ (i a).val ∧ (i a).val < win0_9.index t a * S16x64.size a + S16x64.size a := by
  show i ∈ ((View.whole main_v3_1).slice (win0_9.rect t)).set ↔ _
  rw [View.set_slice_whole, Rect.mem_set_unit]
  exact Iff.rfl

theorem mem_blk8 (t : Fin cfg0.N) (i : S256x2048.Idx) :
    i ∈ ((cfg0.win 8).blk t).view.set ↔ ∀ a : Fin 2, win0_8.index t a * S16x2048.size a ≤ (i a).val ∧ (i a).val < win0_8.index t a * S16x2048.size a + S16x2048.size a := by
  show i ∈ ((View.whole main_v3_0).slice (win0_8.rect t)).set ↔ _
  rw [View.set_slice_whole, Rect.mem_set_unit]
  exact Iff.rfl

/-- Batch row `b` is in the block of point `b / 16`. -/
theorem cover9 (i : S256x64.Idx) : ∃ t : Fin cfg0.N, (cfg0.win 9).flush t = true ∧ i ∈ ((cfg0.win 9).blk t).view.set := by
  have hi0 : (i 0).val < 256 := (i 0).isLt
  have hi1 : (i 1).val < 64 := (i 1).isLt
  have hN : cfg0.N = 16 := N_0
  obtain ⟨t, ht⟩ : ∃ t : Fin cfg0.N, t.val = (i 0).val / 16 := ⟨⟨(i 0).val / 16, by rw [hN]; omega⟩, rfl⟩
  obtain ⟨-, -, -, -, -, -, -, -, -, -, -, -, -, -, -, -, e0, e1⟩ := idx_facts t
  refine ⟨t, flush0_9 t, ?_⟩
  rw [mem_blk9]
  intro a
  match a with
  | ⟨0, _⟩ => show win0_9.index t (0 : Fin 2) * 16 ≤ (i 0).val ∧ (i 0).val < win0_9.index t (0 : Fin 2) * 16 + 16; omega
  | ⟨1, _⟩ => show win0_9.index t (1 : Fin 2) * 64 ≤ (i 1).val ∧ (i 1).val < win0_9.index t (1 : Fin 2) * 64 + 64; omega

theorem cover8 (i : S256x2048.Idx) : ∃ t : Fin cfg0.N, (cfg0.win 8).flush t = true ∧ i ∈ ((cfg0.win 8).blk t).view.set := by
  have hi0 : (i 0).val < 256 := (i 0).isLt
  have hi1 : (i 1).val < 2048 := (i 1).isLt
  have hN : cfg0.N = 16 := N_0
  obtain ⟨t, ht⟩ : ∃ t : Fin cfg0.N, t.val = (i 0).val / 16 := ⟨⟨(i 0).val / 16, by rw [hN]; omega⟩, rfl⟩
  obtain ⟨-, -, -, -, -, -, -, -, -, -, -, -, -, -, e0, e1, -, -⟩ := idx_facts t
  refine ⟨t, flush0_8 t, ?_⟩
  rw [mem_blk8]
  intro a
  match a with
  | ⟨0, _⟩ => show win0_8.index t (0 : Fin 2) * 16 ≤ (i 0).val ∧ (i 0).val < win0_8.index t (0 : Fin 2) * 16 + 16; omega
  | ⟨1, _⟩ => show win0_8.index t (1 : Fin 2) * 2048 ≤ (i 1).val ∧ (i 1).val < win0_8.index t (1 : Fin 2) * 2048 + 2048; omega

/-! ## The two output arrays after the run -/

theorem final9 (c : Dev nD) : (dats m 0 c).arrAt 9 cfg0.N = weightMat m c :=
  (dats m 0 c).arrAt_eq_of_cover 9 (weightMat m c) (fun t _ => flushed9_eq m c t) cover9

theorem final8 (c : Dev nD) : (dats m 0 c).arrAt 8 cfg0.N = contextMat m c :=
  (dats m 0 c).arrAt_eq_of_cover 8 (contextMat m c) (fun t _ => flushed8_eq m c t) cover8

end Cert.KernelIdeal.Attn

end
-- ==== Proof.KernelRun.lean ====
/-
  The idealized kernel program's run, read back: every weakly fair execution ends with the context array holding the
  context vectors of the argument arrays, the weights array — the kernel's [256, 64] result given a trailing unit
  axis by the one host line after the region — holding their attention weights, and the arguments unchanged.
-/
import proofs.«139555_j33243046871455_2_alg».proof.Proof.Gen.KernelIdeal.Frame
import proofs.«139555_j33243046871455_2_alg».proof.Proof.KernelArrays
import proofs.«139555_j33243046871455_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Attn

open Cert.KernelIdeal Cert.KernelIdeal.Gen Cert.AdditiveAttention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The context matrix is the whole-batch context of the argument arrays. -/
theorem contextMat_eq (c : Dev nD) : contextMat m c = contextOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := rfl

/-- The host line after the region gives the weights matrix [256, 64] a trailing unit axis: entry (b, p, 0) is entry (b, p). -/
theorem tail_eq (c : Dev nD) :
    Pipeline.afterTail₀ cfgs (dats m) 0 (V0 m) [hostOps1] c main_v4 = weightsOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v4) = _
  after_results
  rw [(Pipeline.withArrays_arr spec0 launch0.win.arr_inj c _ _ 9).trans (final9 m c)]
  funext i
  obtain ⟨b, p, z, rfl⟩ : ∃ (b : Fin 256) (p : Fin 64) (z : Fin 1), i = ix3 b p z := ⟨i 0, i 1, i 2, eq_ix3 i⟩
  refine (broadcastInDim_apply _ bcast_S256x64_S256x64x1_0_1 (weightMat m c) (ix3 b p z) (ix2 b p) (fun a => match a with
    | ⟨0, _⟩ => by show b.val = if (256 : Nat) = 1 then 0 else b.val; rw [if_neg (by decide)]
    | ⟨1, _⟩ => by show p.val = if (64 : Nat) = 1 then 0 else p.val; rw [if_neg (by decide)])).trans ?_
  rfl

/-- The run of the idealized kernel program. -/
theorem run : θ_run defs (onTc (τ := τ) (main (F := Ideal))) ⟨m, fun _ => 0, ρ⟩ fun r => ∀ c : Dev nD,
      r.2.mem ((c : Thread nD τ).loc main_v3_0) = contextOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
      ∧ r.2.mem ((c : Thread nD τ).loc main_v4) = weightsOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).1 8).trans ((final8 m c).trans (contextMat_eq m c)),
      ((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c)))⟩)
    (run_main m ρ)

end Cert.KernelIdeal.Attn

end
-- ==== Proof.RefValue.lean ====
/-
  The reference program's two results, read element by element on the extended reals, are the additive-attention
  weights and context vectors of the argument arrays.
-/
import proofs.«139555_j33243046871455_2_alg».proof.Proof.Gen.ReferenceIdeal.Read
import proofs.«139555_j33243046871455_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Attn

open Cert.ReferenceIdeal Cert.ReferenceIdeal.Read Cert.AdditiveAttention
open Idealize.ShloMosaic Idealize.ShloMosaic.ValueIdx

variable (X0 : (⟨S256x64x2048, .f32⟩ : BufTy).Contents (Elt Ideal)) (X1 : (⟨S256x1024, .f32⟩ : BufTy).Contents (Elt Ideal))
  (X2 : (⟨S2048x1024, .f32⟩ : BufTy).Contents (Elt Ideal)) (X3 : (⟨S1024, .f32⟩ : BufTy).Contents (Elt Ideal))
  (X4 : (⟨S1024x1024, .f32⟩ : BufTy).Contents (Elt Ideal)) (X5 : (⟨S1024, .f32⟩ : BufTy).Contents (Elt Ideal))
  (X6 : (⟨S1024x1, .f32⟩ : BufTy).Contents (Elt Ideal)) (X7 : (⟨S1, .f32⟩ : BufTy).Contents (Elt Ideal))

/-! ## Indices

Each composed index of the reference, at an index built from its coordinates, is the index built from the
coordinates it keeps. -/

theorem lidx0_ix (b : Fin 256) (p : Fin 64) (u : Fin 1024) (k : Fin 2048) : lidx_main_v0 (ix3 b p u) k = ix3 b p k :=
  funext fun a => Fin.ext (by match a with | ⟨0, _⟩ => rfl | ⟨1, _⟩ => rfl | ⟨2, _⟩ => rfl)

theorem ridx0_ix (b : Fin 256) (p : Fin 64) (u : Fin 1024) (k : Fin 2048) : ridx_main_v0 (ix3 b p u) k = ix2 k u :=
  funext fun a => Fin.ext (by match a with | ⟨0, _⟩ => rfl | ⟨1, _⟩ => rfl)

theorem idx1_ix (b : Fin 256) (p : Fin 64) (u : Fin 1024) : idx_main_v1 (idx_main_v2 (ix3 b p u)) = ix1 u :=
  funext fun a => Fin.ext (by match a with | ⟨0, _⟩ => rfl)

theorem lidx4_ix (b : Fin 256) (u : Fin 1024) (k : Fin 1024) : lidx_main_v4 (ix2 b u) k = ix2 b k :=
  funext fun a => Fin.ext (by match a with | ⟨0, _⟩ => rfl | ⟨1, _⟩ => rfl)

theorem ridx4_ix (b : Fin 256) (u : Fin 1024) (k : Fin 1024) : ridx_main_v4 (ix2 b u) k = ix2 k u :=
  funext fun a => Fin.ext (by match a with | ⟨0, _⟩ => rfl | ⟨1, _⟩ => rfl)

theorem idx5_ix (b : Fin 256) (u : Fin 1024) : idx_main_v5 (idx_main_v6 (ix2 b u)) = ix1 u :=
  funext fun a => Fin.ext (by match a with | ⟨0, _⟩ => rfl)

theorem idx8_ix (b : Fin 256) (p : Fin 64) (u : Fin 1024) : idx_main_v8 (idx_main_v9 (ix3 b p u)) = ix2 b u :=
  funext fun a => Fin.ext (by match a with | ⟨0, _⟩ => rfl | ⟨1, _⟩ => rfl)

theorem lidx12_ix (b : Fin 256) (p : Fin 64) (z : Fin 1) (k : Fin 1024) : lidx_main_v12 (ix3 b p z) k = ix3 b p k :=
  funext fun a => Fin.ext (by match a with | ⟨0, _⟩ => rfl | ⟨1, _⟩ => rfl | ⟨2, _⟩ => rfl)

theorem ridx12_ix (b : Fin 256) (p : Fin 64) (z : Fin 1) (k : Fin 1024) : ridx_main_v12 (ix3 b p z) k = ix2 k 0 :=
  funext fun a => Fin.ext (by
    match a with
    | ⟨0, _⟩ => rfl
    | ⟨1, _⟩ => exact congrArg Fin.val (Subsingleton.elim z 0))

theorem idx13_ix (b : Fin 256) (p : Fin 64) (z : Fin 1) : idx_main_v13 (idx_main_v14 (ix3 b p z)) = ix1 0 :=
  funext fun a => Fin.ext (by match a with | ⟨0, _⟩ => rfl)

theorem idx19_ix (b : Fin 256) (p : Fin 64) (z : Fin 1) : idx_main_v19 (idx_main_v20 (ix3 b p z)) = ix2 b 0 :=
  funext fun a => Fin.ext (by match a with | ⟨0, _⟩ => rfl | ⟨1, _⟩ => rfl)

theorem idx24_ix (b : Fin 256) (p : Fin 64) (z : Fin 1) : idx_main_v24 (idx_main_v25 (ix3 b p z)) = ix2 b 0 :=
  funext fun a => Fin.ext (by match a with | ⟨0, _⟩ => rfl | ⟨1, _⟩ => rfl)

theorem idx23_ix (b : Fin 256) (z : Fin 1) (k : Fin 64) : idx_main_v23 (ix2 b z) k = ix3 b k z :=
  funext fun a => Fin.ext (by match a with | ⟨0, _⟩ => rfl | ⟨1, _⟩ => rfl | ⟨2, _⟩ => rfl)

theorem idx29_ix (b : Fin 256) (f : Fin 2048) (k : Fin 64) : idx_main_v29 (ix2 b f) k = ix3 b k f :=
  funext fun a => Fin.ext (by match a with | ⟨0, _⟩ => rfl | ⟨1, _⟩ => rfl | ⟨2, _⟩ => rfl)

theorem idx27_ix (b : Fin 256) (p : Fin 64) (f : Fin 2048) : idx_main_v27 (ix3 b p f) = ix3 b p 0 :=
  funext fun a => Fin.ext (by match a with | ⟨0, _⟩ => rfl | ⟨1, _⟩ => rfl | ⟨2, _⟩ => rfl)

/-! ## The stages at an index

The Spec's row functions are applied to row `b` of the features and of the hidden states and to the shared
parameters. -/

/-- The features' projection at (b, p, u). -/
theorem featProj_eq (b : Fin 256) (p : Fin 64) (u : Fin 1024) :
    val_main_v3 (F := Ideal) X0 X2 X3 (ix3 b p u)
      = featProj (fun p f => X0 (ix3 b p f)) (fun f u => X2 (ix2 f u)) (fun u => X3 (ix1 u)) p u := by
  rw [val_main_v3_apply, val_main_v0_apply, val_main_v2_apply, val_main_v1_apply, idx1_ix]
  unfold featProj
  rw [Ideal.addf_def]
  refine congrArg (· + X3 (ix1 u)) (Finset.sum_congr rfl fun k _ => ?_)
  rw [lidx0_ix, ridx0_ix]

/-- The hidden state's projection at (b, u). -/
theorem hidProj_eq (b : Fin 256) (u : Fin 1024) :
    val_main_v7 (F := Ideal) X1 X4 X5 (ix2 b u)
      = hidProj (fun k => X1 (ix2 b k)) (fun k u => X4 (ix2 k u)) (fun u => X5 (ix1 u)) u := by
  rw [val_main_v7_apply, val_main_v4_apply, val_main_v6_apply, val_main_v5_apply, idx5_ix]
  unfold hidProj
  rw [Ideal.addf_def]
  refine congrArg (· + X5 (ix1 u)) (Finset.sum_congr rfl fun k _ => ?_)
  rw [lidx4_ix, ridx4_ix]

/-- The activation at (b, p, u). -/
theorem act_eq (b : Fin 256) (p : Fin 64) (u : Fin 1024) :
    val_main_v11 (F := Ideal) X0 X1 X2 X3 X4 X5 (ix3 b p u)
      = act (fun p f => X0 (ix3 b p f)) (fun k => X1 (ix2 b k)) (fun f u => X2 (ix2 f u)) (fun u => X3 (ix1 u))
          (fun k u => X4 (ix2 k u)) (fun u => X5 (ix1 u)) p u := by
  rw [val_main_v11_apply, val_main_v10_apply, val_main_v9_apply, val_main_v8_apply, idx8_ix, featProj_eq, hidProj_eq]
  unfold act
  rw [Ideal.hostUnary_tanh_def, Ideal.addf_def]

/-- The logit at (b, p). -/
theorem logit_eq (b : Fin 256) (p : Fin 64) (z : Fin 1) :
    val_main_v15 (F := Ideal) X0 X1 X2 X3 X4 X5 X6 X7 (ix3 b p z)
      = logit (fun p f => X0 (ix3 b p f)) (fun k => X1 (ix2 b k)) (fun f u => X2 (ix2 f u)) (fun u => X3 (ix1 u))
          (fun k u => X4 (ix2 k u)) (fun u => X5 (ix1 u)) (fun u => X6 (ix2 u 0)) (X7 (ix1 0)) p := by
  rw [val_main_v15_apply, val_main_v12_apply, val_main_v14_apply, val_main_v13_apply, idx13_ix]
  unfold logit
  rw [Ideal.addf_def]
  refine congrArg (· + X7 (ix1 0)) (Finset.sum_congr rfl fun k _ => ?_)
  rw [lidx12_ix, ridx12_ix, act_eq]

/-! ## The largest logit -/

/-- The word 0xFF800000 is −∞. -/
theorem ofBits_negInf : Ideal.ofBits .f32 0xFF800000#32 = (⊥ : EReal) := by simp [Ideal.ofBits, Ideal.ieee]

/-- Dropping the middle axis of [256, 64, 1] leaves [256, 1]. -/
theorem reduces_mid : S256x64x1.Reduces [1] S256x1 := by decide

/-- The reduced index (b, z) with position `k` put back is (b, k, z). -/
theorem lift_ix3 (b : Fin 256) (z : Fin 1) (k : Fin (S256x64x1.size 1)) :
    reduces_mid.lift (ix2 b z) k = ix3 b (⟨k.val, k.isLt⟩ : Fin 64) z := by
  funext c; apply Fin.ext
  fin_cases c <;> rfl

/-- The reduce with a maximum body from −∞ over the 64 positions, at (b, z), is the fold of `max` from −∞ over row `b`'s logits. -/
theorem reduceMax_eq (b : Fin 256) (z : Fin 1) :
    val_main_v16 (F := Ideal) X0 X1 X2 X3 X4 X5 X6 X7 (ix2 b z)
      = logitMax (fun p f => X0 (ix3 b p f)) (fun k => X1 (ix2 b k)) (fun f u => X2 (ix2 f u)) (fun u => X3 (ix1 u))
          (fun k u => X4 (ix2 k u)) (fun u => X5 (ix1 u)) (fun u => X6 (ix2 u 0)) (X7 (ix1 0)) := by
  unfold val_main_v16
  rw [Host.reduce_eq_fold_single FloatOps.maximumf _ _ _ reduces_mid _ (ix2 b z), val_main_cst_apply, Ideal.ofBits_def, ofBits_negInf]
  unfold logitMax
  have hf : (val_main_v15 (F := Ideal) X0 X1 X2 X3 X4 X5 X6 X7 ∘ reduces_mid.lift (ix2 b z))
      = fun k : Fin 64 => logit (fun p f => X0 (ix3 b p f)) (fun k => X1 (ix2 b k)) (fun f u => X2 (ix2 f u)) (fun u => X3 (ix1 u))
          (fun k u => X4 (ix2 k u)) (fun u => X5 (ix1 u)) (fun u => X6 (ix2 u 0)) (X7 (ix1 0)) k :=
    funext fun k => (congrArg (val_main_v15 (F := Ideal) X0 X1 X2 X3 X4 X5 X6 X7) (lift_ix3 b z k)).trans (logit_eq X0 X1 X2 X3 X4 X5 X6 X7 b ⟨k.val, k.isLt⟩ z)
  exact congrArg (fun f => Finset.fold max (⊥ : EReal) f (Finset.univ : Finset (Fin 64))) hf

/-- The maximum of −∞ and the row's largest logit is the row's largest logit. -/
theorem logitMax_eq (b : Fin 256) (z : Fin 1) :
    val_main_v18 (F := Ideal) X0 X1 X2 X3 X4 X5 X6 X7 (ix2 b z)
      = logitMax (fun p f => X0 (ix3 b p f)) (fun k => X1 (ix2 b k)) (fun f u => X2 (ix2 f u)) (fun u => X3 (ix1 u))
          (fun k u => X4 (ix2 k u)) (fun u => X5 (ix1 u)) (fun u => X6 (ix2 u 0)) (X7 (ix1 0)) := by
  rw [val_main_v18_apply, val_main_v17_apply, val_main_cst_0_apply, reduceMax_eq, Ideal.maximumf_def, Ideal.ofBits_def, ofBits_negInf]
  exact max_eq_right bot_le

/-! ## The exponentials, their sum and the weights -/

theorem expo_eq (b : Fin 256) (p : Fin 64) (z : Fin 1) :
    val_main_v22 (F := Ideal) X0 X1 X2 X3 X4 X5 X6 X7 (ix3 b p z)
      = expo (fun p f => X0 (ix3 b p f)) (fun k => X1 (ix2 b k)) (fun f u => X2 (ix2 f u)) (fun u => X3 (ix1 u))
          (fun k u => X4 (ix2 k u)) (fun u => X5 (ix1 u)) (fun u => X6 (ix2 u 0)) (X7 (ix1 0)) p := by
  rw [val_main_v22_apply, val_main_v21_apply, val_main_v20_apply, val_main_v19_apply, idx19_ix, logit_eq, logitMax_eq]
  unfold expo
  rw [Ideal.hostUnary_exp_def, Ideal.subf_def]

theorem expoSum_eq (b : Fin 256) (z : Fin 1) :
    val_main_v23 (F := Ideal) X0 X1 X2 X3 X4 X5 X6 X7 (ix2 b z)
      = ∑ q : Fin 64, expo (fun p f => X0 (ix3 b p f)) (fun k => X1 (ix2 b k)) (fun f u => X2 (ix2 f u)) (fun u => X3 (ix1 u))
          (fun k u => X4 (ix2 k u)) (fun u => X5 (ix1 u)) (fun u => X6 (ix2 u 0)) (X7 (ix1 0)) q := by
  rw [val_main_v23_apply, val_main_cst_1_apply, Ideal.ofBits_def, Ideal.ofBits_zero_f32, zero_add]
  refine Finset.sum_congr rfl fun k _ => ?_
  rw [idx23_ix, expo_eq]

theorem weight_eq (b : Fin 256) (p : Fin 64) (z : Fin 1) :
    val_main_v26 (F := Ideal) X0 X1 X2 X3 X4 X5 X6 X7 (ix3 b p z)
      = weight (fun p f => X0 (ix3 b p f)) (fun k => X1 (ix2 b k)) (fun f u => X2 (ix2 f u)) (fun u => X3 (ix1 u))
          (fun k u => X4 (ix2 k u)) (fun u => X5 (ix1 u)) (fun u => X6 (ix2 u 0)) (X7 (ix1 0)) p := by
  rw [val_main_v26_apply, val_main_v25_apply, val_main_v24_apply, idx24_ix, expo_eq, expoSum_eq]
  unfold weight
  rw [Ideal.hostDivf_def]

/-- The reference's weights [256, 64, 1]. -/
theorem weights_eq : val_main_v26 (F := Ideal) X0 X1 X2 X3 X4 X5 X6 X7 = weightsOf X0 X1 X2 X3 X4 X5 X6 X7 := by
  funext i
  obtain ⟨b, p, z, rfl⟩ : ∃ (b : Fin 256) (p : Fin 64) (z : Fin 1), i = ix3 b p z := ⟨i 0, i 1, i 2, eq_ix3 i⟩
  rw [weightsOf_ix, weight_eq]

/-- The reference's context vectors [256, 2048]. -/
theorem context_eq : val_main_v29 (F := Ideal) X0 X1 X2 X3 X4 X5 X6 X7 = contextOf X0 X1 X2 X3 X4 X5 X6 X7 := by
  funext i
  obtain ⟨b, f, rfl⟩ : ∃ (b : Fin 256) (f : Fin 2048), i = ix2 b f := ⟨i 0, i 1, eq_ix2 i⟩
  rw [contextOf_ix, val_main_v29_apply, val_main_cst_2_apply, Ideal.ofBits_def, Ideal.ofBits_zero_f32, zero_add]
  unfold context
  refine Finset.sum_congr rfl fun k _ => ?_
  rw [idx29_ix, val_main_v28_apply, val_main_v27_apply, idx27_ix, weight_eq, Ideal.mulf_def]

end Cert.ReferenceIdeal.Attn

end
-- ==== Proof.lean ====
/-
  Additive attention: a Pallas kernel over blocks of 16 batch rows against its jnp reference, equal on the extended reals.

  Per batch row both programs compute tanh (x·W1 + b1 + h·W2 + b2), score it against a vector, take the softmax of the
  64 logits in the stable form (largest logit subtracted, exponentials over their sum) and the weighted sum of the row's
  feature vectors. They differ in what the ideal instance forgets or the extended reals allow: the kernel narrows its
  matrix operands to bf16 (the identity there), computes the first product on the flattened [1024, 2048] block, scores
  by a lane sum against the transposed column where the reference contracts, multiplies feature · weight where the
  reference multiplies weight · feature, and accumulates the weighted sum over four runs of 16 positions from zero.
  Those are re-indexings, commutativity of the product and associativity of the sum, which hold at the infinities too,
  so the precondition is never opened. Everything is row-local, so a block of 16 rows is computed on its own and the
  16 blocks tile the batch.

  The three frames are the generated ones (the reference's its generated run with the results dropped); the ideal pass
  rewrote nothing, so `preserves` is `True`; the value claim sets the kernel's run (Proof/KernelRun.lean) beside the
  reference's generated run read element by element (Proof/RefValue.lean), both at the specification of Proof/Spec.lean.
-/
import proofs.«139555_j33243046871455_2_alg».proof.Defs
import proofs.«139555_j33243046871455_2_alg».proof.Proof.Gen.Kernel
import proofs.«139555_j33243046871455_2_alg».proof.Proof.Gen.Kernel.Skeleton
import proofs.«139555_j33243046871455_2_alg».proof.Proof.Gen.Kernel.Launch
import proofs.«139555_j33243046871455_2_alg».proof.Proof.Gen.Kernel.Points
import proofs.«139555_j33243046871455_2_alg».proof.Proof.Gen.Kernel.Frame
import proofs.«139555_j33243046871455_2_alg».proof.Proof.Gen.KernelIdeal
import proofs.«139555_j33243046871455_2_alg».proof.Proof.Gen.KernelIdeal.Skeleton
import proofs.«139555_j33243046871455_2_alg».proof.Proof.Gen.KernelIdeal.Launch
import proofs.«139555_j33243046871455_2_alg».proof.Proof.Gen.KernelIdeal.Points
import proofs.«139555_j33243046871455_2_alg».proof.Proof.Gen.KernelIdeal.Frame
import proofs.«139555_j33243046871455_2_alg».proof.Proof.Gen.ReferenceIdeal
import proofs.«139555_j33243046871455_2_alg».proof.Proof.Gen.Pre_finite_inputs
import proofs.«139555_j33243046871455_2_alg».proof.Proof.Gen.ReferenceIdeal.Run
import proofs.«139555_j33243046871455_2_alg».proof.Proof.Gen.ReferenceIdeal.Read
import proofs.«139555_j33243046871455_2_alg».proof.Proof.Spec
import proofs.«139555_j33243046871455_2_alg».proof.Proof.KernelRun
import proofs.«139555_j33243046871455_2_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the context vectors and the attention weights of the (agreeing) argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.Attn.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v29_eq, Cert.ReferenceIdeal.Attn.context_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
  · rw [Cert.ReferenceIdeal.Read.val_main_v26_eq, Cert.ReferenceIdeal.Attn.weights_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
